-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4x512x512 : Shape := ⟨3, ![4, 512, 512]⟩
abbrev S4x512 : Shape := ⟨2, ![4, 512]⟩
abbrev S3x512x512 : Shape := ⟨3, ![3, 512, 512]⟩
abbrev S3x512 : Shape := ⟨2, ![3, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part2 {F : FTy → Type} [FloatOps F] (main_arg7 : FVec F S3x512x512 .f32) (main_arg8 : FVec F S3x512 .f32) (main_v33 : IVec S_ 1) : IVec S_ 1 :=
  let main_v34 : FVec F S3x512x512 .f32 := Host.absf main_arg7
  let main_cst_12 : FVec F S_ .f32 := constant S_ .f32 0x7F800000#32
  let main_v35 : FVec F S3x512x512 .f32 := broadcastInDim S3x512x512 ![] bcast_S_S3x512x512 main_cst_12
  let main_v36 : IVec S3x512x512 1 := cmpf .olt main_v34 main_v35
  let main_c_13 : IVec S_ 1 := constantI S_ 1 1#1
  let main_v37 : IVec S_ 1 := (fun x v => Host.reduce IntOp.andi x v reducesTo_S3x512x512_S_d0_1_2 h_S_) main_v36 main_c_13
  let main_v38 : IVec S_ 1 := andi main_v33 main_v37
  let main_v39 : FVec F S3x512 .f32 := Host.absf main_arg8
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  main_v43

def fn_part1 {F : FTy → Type} [FloatOps F] (main_arg4 : FVec F S4x512 .f32) (main_arg5 : FVec F S4x512x512 .f32) (main_arg6 : FVec F S4x512 .f32) (main_arg7 : FVec F S3x512x512 .f32) (main_arg8 : FVec F S3x512 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x512 .f32 := Host.absf main_arg5
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_arg8 main_v33

def fn {F : FTy → Type} [FloatOps F] (main_arg0 : FVec F S32768x512 .f32) (main_arg1 : FVec F S32768x512 .f32) (main_arg2 : FVec F S32768x512 .f32) (main_arg3 : FVec F S4x512x512 .f32) (main_arg4 : FVec F S4x512 .f32) (main_arg5 : FVec F S4x512x512 .f32) (main_arg6 : FVec F S4x512 .f32) (main_arg7 : FVec F S3x512x512 .f32) (main_arg8 : FVec F S3x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S4x512x512 .f32 := Host.absf main_arg3
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg4 main_arg5 main_arg6 main_arg7 main_arg8 main_v13 main_v16
-- ==== Kernel.lean ====
abbrev S32768x512 : Shape := ⟨2, ![32768, 512]⟩
abbrev S4x512x512 : Shape := ⟨3, ![4, 512, 512]⟩
abbrev S4x512 : Shape := ⟨2, ![4, 512]⟩
abbrev S3x512x512 : Shape := ⟨3, ![3, 512, 512]⟩
abbrev S3x512 : Shape := ⟨2, ![3, 512]⟩
abbrev S512x4x512 : Shape := ⟨3, ![512, 4, 512]⟩
abbrev S512x2048 : Shape := ⟨2, ![512, 2048]⟩
abbrev S2x512x512 : Shape := ⟨3, ![2, 512, 512]⟩
abbrev S512x2x512 : Shape := ⟨3, ![512, 2, 512]⟩
abbrev S512x1024 : Shape := ⟨2, ![512, 1024]⟩
abbrev S1x512x512 : Shape := ⟨3, ![1, 512, 512]⟩
abbrev S512x512 : Shape := ⟨2, ![512, 512]⟩
abbrev S1x2048 : Shape := ⟨2, ![1, 2048]⟩
abbrev S2x512 : Shape := ⟨2, ![2, 512]⟩
abbrev S1x1024 : Shape := ⟨2, ![1, 1024]⟩
abbrev S1x512 : Shape := ⟨2, ![1, 512]⟩
abbrev S512 : Shape := ⟨1, ![512]⟩

abbrev nBuf : Space → Nat
  | .hbm => 32
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S3x512x512, .f32⟩
  | .hbm, ⟨8, _⟩ => ⟨S3x512, .f32⟩
  | .hbm, ⟨9, _⟩ => ⟨S512x4x512, .f32⟩
  | .hbm, ⟨10, _⟩ => ⟨S512x2048, .f32⟩
  | .hbm, ⟨11, _⟩ => ⟨S512x2048, .bf16⟩
  | .hbm, ⟨12, _⟩ => ⟨S512x4x512, .f32⟩
  | .hbm, ⟨13, _⟩ => ⟨S512x2048, .f32⟩
  | .hbm, ⟨14, _⟩ => ⟨S512x2048, .bf16⟩
  | .hbm, ⟨15, _⟩ => ⟨S2x512x512, .f32⟩
  | .hbm, ⟨16, _⟩ => ⟨S512x2x512, .f32⟩
  | .hbm, ⟨17, _⟩ => ⟨S512x1024, .f32⟩
  | .hbm, ⟨18, _⟩ => ⟨S512x1024, .bf16⟩
  | .hbm, ⟨19, _⟩ => ⟨S1x512x512, .f32⟩
  | .hbm, ⟨20, _⟩ => ⟨S512x512, .f32⟩
  | .hbm, ⟨21, _⟩ => ⟨S512x512, .f32⟩
  | .hbm, ⟨22, _⟩ => ⟨S512x512, .bf16⟩
  | .hbm, ⟨23, _⟩ => ⟨S1x2048, .f32⟩
  | .hbm, ⟨24, _⟩ => ⟨S1x2048, .f32⟩
  | .hbm, ⟨25, _⟩ => ⟨S2x512, .f32⟩
  | .hbm, ⟨26, _⟩ => ⟨S1x1024, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S32768x512, .f32⟩
  | .hbm, ⟨31, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x512, .bf16⟩
  | .local _ .vmem, ⟨10, _⟩ => ⟨S1x2048, .f32⟩
  | .local _ .vmem, ⟨11, _⟩ => ⟨S1x2048, .f32⟩
  | .local _ .vmem, ⟨12, _⟩ => ⟨S1x1024, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S4x512x512_S512x4x512_2_0_1 : S4x512x512.Transposes [2, 0, 1] S512x4x512
  shapeCasts_S512x4x512_S512x2048 : S512x4x512.ShapeCasts S512x2048
  bitsLt_bf16_f32 : FTy.bits .bf16 < FTy.bits .f32
  slices_S3x512x512_S2x512x512_0_0_0 : S3x512x512.Slices ![0, 0, 0] S2x512x512
  transposes_S2x512x512_S512x2x512_2_0_1 : S2x512x512.Transposes [2, 0, 1] S512x2x512
  shapeCasts_S512x2x512_S512x1024 : S512x2x512.ShapeCasts S512x1024
  slices_S3x512x512_S1x512x512_2_0_0 : S3x512x512.Slices ![2, 0, 0] S1x512x512
  shapeCasts_S1x512x512_S512x512 : S1x512x512.ShapeCasts S512x512
  transposes_S512x512_S512x512_1_0 : S512x512.Transposes [1, 0] S512x512
  shapeCasts_S4x512_S1x2048 : S4x512.ShapeCasts S1x2048
  slices_S3x512_S2x512_0_0 : S3x512.Slices ![0, 0] S2x512
  shapeCasts_S2x512_S1x1024 : S2x512.ShapeCasts S1x1024
  slices_S3x512_S1x512_2_0 : S3x512.Slices ![2, 0] S1x512
  shapeCasts_S1x512_S512 : S1x512.ShapeCasts S512
  shapeCasts_S512_S1x512 : S512.ShapeCasts S1x512
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x512_S512x512 : S512x512.ShapeCasts S512x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  slices_S512x1024_o0_0_S512x512 : S512x1024.Slices ![0, 0] S512x512
  slices_S512x1024_o0_512_S512x512 : S512x1024.Slices ![0, 512] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x2048_S512x2048_1_0_0_1_n_n_wf : DotDims.WF S512x512 S512x2048 S512x2048 [1] [0] [0] [1] [] []
  dot_S512x512_S512x1024_S512x1024_1_0_0_1_n_n_wf : DotDims.WF S512x512 S512x1024 S512x1024 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S32768x512.size a
  hwx0_11 : ∀ i : grid0.Coords, EltTy.bits .f32 = 32 ∨ (Rect.block (s := S32768x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S32768x512.size a
  hwx0_12 : ∀ i : grid0.Coords, EltTy.bits .f32 = 32 ∨ (Rect.block (s := S32768x512) S512x512.size (cc0_transform_12 i) (hinb0_12 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v21_1) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x512 : Shape := ⟨2, ![32768, 512]⟩
abbrev S4x512x512 : Shape := ⟨3, ![4, 512, 512]⟩
abbrev S4x512 : Shape := ⟨2, ![4, 512]⟩
abbrev S3x512x512 : Shape := ⟨3, ![3, 512, 512]⟩
abbrev S3x512 : Shape := ⟨2, ![3, 512]⟩
abbrev S4x512x32768 : Shape := ⟨3, ![4, 512, 32768]⟩
abbrev S4x32768x512 : Shape := ⟨3, ![4, 32768, 512]⟩
abbrev S4x1x512 : Shape := ⟨3, ![4, 1, 512]⟩
abbrev S2x512x512 : Shape := ⟨3, ![2, 512, 512]⟩
abbrev S2x512x32768 : Shape := ⟨3, ![2, 512, 32768]⟩
abbrev S2x32768x512 : Shape := ⟨3, ![2, 32768, 512]⟩
abbrev S2x512 : Shape := ⟨2, ![2, 512]⟩
abbrev S2x1x512 : Shape := ⟨3, ![2, 1, 512]⟩
abbrev S1x32768x512 : Shape := ⟨3, ![1, 32768, 512]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 91
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S3x512x512, .f32⟩
  | .hbm, ⟨8, _⟩ => ⟨S3x512, .f32⟩
  | .hbm, ⟨9, _⟩ => ⟨S4x512x32768, .f32⟩
  | .hbm, ⟨10, _⟩ => ⟨S4x32768x512, .f32⟩
  | .hbm, ⟨11, _⟩ => ⟨S4x1x512, .f32⟩
  | .hbm, ⟨12, _⟩ => ⟨S4x32768x512, .f32⟩
  | .hbm, ⟨13, _⟩ => ⟨S4x32768x512, .f32⟩
  | .hbm, ⟨14, _⟩ => ⟨S4x512x32768, .f32⟩
  | .hbm, ⟨15, _⟩ => ⟨S4x32768x512, .f32⟩
  | .hbm, ⟨16, _⟩ => ⟨S4x1x512, .f32⟩
  | .hbm, ⟨17, _⟩ => ⟨S4x32768x512, .f32⟩
  | .hbm, ⟨18, _⟩ => ⟨S4x32768x512, .f32⟩
  | .hbm, ⟨19, _⟩ => ⟨S2x512x512, .f32⟩
  | .hbm, ⟨20, _⟩ => ⟨S2x512x32768, .f32⟩
  | .hbm, ⟨21, _⟩ => ⟨S2x32768x512, .f32⟩
  | .hbm, ⟨22, _⟩ => ⟨S2x512, .f32⟩
  | .hbm, ⟨23, _⟩ => ⟨S2x1x512, .f32⟩
  | .hbm, ⟨24, _⟩ => ⟨S2x32768x512, .f32⟩
  | .hbm, ⟨25, _⟩ => ⟨S2x32768x512, .f32⟩
  | .hbm, ⟨26, _⟩ => ⟨S1x32768x512, .f32⟩
  | .hbm, ⟨27, _⟩ => ⟨S32768x512, .f32⟩
  | .hbm, ⟨28, _⟩ => ⟨S1x32768x512, .f32⟩
  | .hbm, ⟨29, _⟩ => ⟨S32768x512, .f32⟩
  | .hbm, ⟨30, _⟩ => ⟨S32768x512, .f32⟩
  | .hbm, ⟨31, _⟩ => ⟨S1x32768x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S1x32768x512, .f32⟩
  | .hbm, ⟨43, _⟩ => ⟨S32768x512, .f32⟩
  | .hbm, ⟨44, _⟩ => ⟨S1x32768x512, .f32⟩
  | .hbm, ⟨45, _⟩ => ⟨S32768x512, .f32⟩
  | .hbm, ⟨46, _⟩ => ⟨S32768x512, .f32⟩
  | .hbm, ⟨47, _⟩ => ⟨S1x32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S1x32768x512, .f32⟩
  | .hbm, ⟨59, _⟩ => ⟨S32768x512, .f32⟩
  | .hbm, ⟨60, _⟩ => ⟨S1x32768x512, .f32⟩
  | .hbm, ⟨61, _⟩ => ⟨S32768x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S1x32768x512, .f32⟩
  | .hbm, ⟨68, _⟩ => ⟨S32768x512, .f32⟩
  | .hbm, ⟨69, _⟩ => ⟨S1x32768x512, .f32⟩
  | .hbm, ⟨70, _⟩ => ⟨S32768x512, .f32⟩
  | .hbm, ⟨71, _⟩ => ⟨S32768x512, .f32⟩
  | .hbm, ⟨72, _⟩ => ⟨S1x512x512, .f32⟩
  | .hbm, ⟨73, _⟩ => ⟨S512x512, .f32⟩
  | .hbm, ⟨74, _⟩ => ⟨S512x512, .f32⟩
  | .hbm, ⟨75, _⟩ => ⟨S32768x512, .f32⟩
  | .hbm, ⟨76, _⟩ => ⟨S32768x512, .f32⟩
  | .hbm, ⟨77, _⟩ => ⟨S1x512, .f32⟩
  | .hbm, ⟨78, _⟩ => ⟨S512, .f32⟩
  | .hbm, ⟨79, _⟩ => ⟨S1x512, .f32⟩
  | .hbm, ⟨80, _⟩ => ⟨S32768x512, .f32⟩
  | .hbm, ⟨81, _⟩ => ⟨S32768x512, .f32⟩
  | .hbm, ⟨82, _⟩ => ⟨S32768x512, .f32⟩
  | .hbm, ⟨83, _⟩ => ⟨S32768x512, .f32⟩
  | .hbm, ⟨84, _⟩ => ⟨S_, .f32⟩
  | .hbm, ⟨85, _⟩ => ⟨S32768x512, .f32⟩
  | .hbm, ⟨86, _⟩ => ⟨S32768x512, .f32⟩
  | .hbm, ⟨87, _⟩ => ⟨S_, .f32⟩
  | .hbm, ⟨88, _⟩ => ⟨S32768x512, .f32⟩
  | .hbm, ⟨89, _⟩ => ⟨S32768x512, .f32⟩
  | .hbm, ⟨90, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_1 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_3 : Ref sig .tc := ⟨.hbm, 84, rfl⟩
abbrev main_v71 : Ref sig .tc := ⟨.hbm, 85, rfl⟩
abbrev main_v72 : Ref sig .tc := ⟨.hbm, 86, rfl⟩
abbrev main_cst_4 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]

class Facts₀ : Prop where
  transposes_S4x512x32768_S4x32768x512_0_2_1 : S4x512x32768.Transposes [0, 2, 1] S4x32768x512
  bcast_S4x512_S4x1x512_0_2 : S4x512.BroadcastsInDim S4x1x512 (![0, 2] : Fin 2 → Fin S4x1x512.rank)
  bcast_S4x1x512_S4x32768x512_0_1_2 : S4x1x512.BroadcastsInDim S4x32768x512 (![0, 1, 2] : Fin 3 → Fin S4x32768x512.rank)
  slices_S3x512x512_S2x512x512_0_0_0 : S3x512x512.Slices ![0, 0, 0] S2x512x512
  transposes_S2x512x32768_S2x32768x512_0_2_1 : S2x512x32768.Transposes [0, 2, 1] S2x32768x512
  slices_S3x512_S2x512_0_0 : S3x512.Slices ![0, 0] S2x512
  bcast_S2x512_S2x1x512_0_2 : S2x512.BroadcastsInDim S2x1x512 (![0, 2] : Fin 2 → Fin S2x1x512.rank)
  bcast_S2x1x512_S2x32768x512_0_1_2 : S2x1x512.BroadcastsInDim S2x32768x512 (![0, 1, 2] : Fin 3 → Fin S2x32768x512.rank)
  slices_S4x32768x512_S1x32768x512_0_0_0 : S4x32768x512.Slices ![0, 0, 0] S1x32768x512
  shapeCasts_S1x32768x512_S32768x512 : S1x32768x512.ShapeCasts S32768x512
  slices_S2x32768x512_S1x32768x512_0_0_0 : S2x32768x512.Slices ![0, 0, 0] S1x32768x512
  bcast_S_S32768x512 : S_.BroadcastsInDim S32768x512 (![] : Fin 0 → Fin S32768x512.rank)
  slices_S4x32768x512_S1x32768x512_1_0_0 : S4x32768x512.Slices ![1, 0, 0] S1x32768x512
  slices_S2x32768x512_S1x32768x512_1_0_0 : S2x32768x512.Slices ![1, 0, 0] S1x32768x512
  slices_S4x32768x512_S1x32768x512_3_0_0 : S4x32768x512.Slices ![3, 0, 0] S1x32768x512
  slices_S4x32768x512_S1x32768x512_2_0_0 : S4x32768x512.Slices ![2, 0, 0] S1x32768x512
  slices_S3x512x512_S1x512x512_2_0_0 : S3x512x512.Slices ![2, 0, 0] S1x512x512
  shapeCasts_S1x512x512_S512x512 : S1x512x512.ShapeCasts S512x512
  transposes_S512x512_S512x512_1_0 : S512x512.Transposes [1, 0] S512x512
  slices_S3x512_S1x512_2_0 : S3x512.Slices ![2, 0] S1x512
  shapeCasts_S1x512_S512 : S1x512.ShapeCasts S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S4x512x512_S32768x512_S4x512x32768_2_1_01_0_n_n_wf : DotDims.WF S4x512x512 S32768x512 S4x512x32768 [2] [1] [0, 1] [0] [] []
  dot_S2x512x512_S32768x512_S2x512x32768_2_1_01_0_n_n_wf : DotDims.WF S2x512x512 S32768x512 S2x512x32768 [2] [1] [0, 1] [0] [] []
  dot_S32768x512_S512x512_S32768x512_1_0_0_1_n_n_wf : DotDims.WF S32768x512 S512x512 S32768x512 [1] [0] [0] [1] [] []

variable [Facts₀]

def dot_S4x512x512_S32768x512_S4x512x32768_2_1_01_0_n_n : DotDims S4x512x512 S32768x512 S4x512x32768 where
  lhsContracting := [2]
  rhsContracting := [1]
  lhsNonContracting := [0, 1]
  rhsNonContracting := [0]
  lhsBatch := []
  rhsBatch := []
  wf := dot_S4x512x512_S32768x512_S4x512x32768_2_1_01_0_n_n_wf
def dot_S2x512x512_S32768x512_S2x512x32768_2_1_01_0_n_n : DotDims S2x512x512 S32768x512 S2x512x32768 where
  lhsContracting := [2]
  rhsContracting := [1]
  lhsNonContracting := [0, 1]
  rhsNonContracting := [0]
  lhsBatch := []
  rhsBatch := []
  wf := dot_S2x512x512_S32768x512_S2x512x32768_2_1_01_0_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Spec.lean ====
/-
  The Graves LSTM cell as ONE function of its nine argument arrays, entry by entry, on the extended reals.

  A linear layer's output feature is a row of the activation against a row of the weight, plus a bias:
  `lin u w b = (∑ e, u e · w e) + b`. With the stacked weights `Wx, Wh : [4, 512, 512]` (gates input, forget,
  output, memory), `Wc : [3, 512, 512]` (input, forget, output) and their biases, at row `r` and feature `f`:

    xh k      = lin x[r,·] Wx[k,f,·] bx[k,f] + lin h[r,·] Wh[k,f,·] bh[k,f]
    i         = σ (xh 0 + lin c[r,·] Wc[0,f,·] bc[0,f])
    forget    = σ (xh 1 + lin c[r,·] Wc[1,f,·] bc[1,f])
    g         = tanh (xh 3)
    next_c    = forget · c[r,f] + i · g
    o         = σ ((xh 2 + ∑ e, next_c[r,e] · Wc[2,f,e]) + bc[2,f])        -- the output gate peeps at next_c
    next_h    = o · next_c

  where `σ z = 1 / (1 + e^(−z))` with the extended reals' conventions at the infinities (`Ideal.logistic`).
  The grouping of every sum is written exactly as both programs group it, so that no law of the extended reals
  beyond commutativity of the product is needed to meet either side.
-/
import Idealize.ShloMosaic.PureOps.Ideal
import Idealize.ShloMosaic.Lib.ValueIdx

noncomputable section

open scoped BigOperators

namespace Cert.Cell

open Idealize.ShloMosaic Idealize.ShloMosaic.ValueIdx

/-- One output feature of a linear layer: a row of the activation against a row of the weight, plus the bias. -/
def lin (u w : Fin 512 → EReal) (b : EReal) : EReal := (∑ e : Fin 512, u e * w e) + b

variable (x h c : FVec Ideal ⟨2, ![32768, 512]⟩ .f32)
  (Wx : FVec Ideal ⟨3, ![4, 512, 512]⟩ .f32) (bx : FVec Ideal ⟨2, ![4, 512]⟩ .f32)
  (Wh : FVec Ideal ⟨3, ![4, 512, 512]⟩ .f32) (bh : FVec Ideal ⟨2, ![4, 512]⟩ .f32)
  (Wc : FVec Ideal ⟨3, ![3, 512, 512]⟩ .f32) (bc : FVec Ideal ⟨2, ![3, 512]⟩ .f32)

/-- Gate `k`'s projection of the input plus its projection of the hidden state, at row `r`, feature `f`. -/
def xh (k : Fin 4) (r : Fin 32768) (f : Fin 512) : EReal :=
  lin (fun e => x (ix2 r e)) (fun e => Wx (ix3 k f e)) (bx (ix2 k f))
    + lin (fun e => h (ix2 r e)) (fun e => Wh (ix3 k f e)) (bh (ix2 k f))

/-- Gate `k`'s peephole projection of the OLD cell state. -/
def peep (k : Fin 3) (r : Fin 32768) (f : Fin 512) : EReal :=
  lin (fun e => c (ix2 r e)) (fun e => Wc (ix3 k f e)) (bc (ix2 k f))

/-- The new cell state at row `r`, feature `f`. -/
def cellC (r : Fin 32768) (f : Fin 512) : EReal :=
  Ideal.logistic (xh x h Wx bx Wh bh 1 r f + peep c Wc bc 1 r f) * c (ix2 r f)
    + Ideal.logistic (xh x h Wx bx Wh bh 0 r f + peep c Wc bc 0 r f) * Ideal.tanh (xh x h Wx bx Wh bh 3 r f)

/-- The new hidden state at row `r`, feature `f`: the output gate peeps at the NEW cell state's row. -/
def cellH (r : Fin 32768) (f : Fin 512) : EReal :=
  Ideal.logistic ((xh x h Wx bx Wh bh 2 r f
      + ∑ e : Fin 512, cellC x h c Wx bx Wh bh Wc bc r e * Wc (ix3 2 f e)) + bc (ix2 2 f))
    * cellC x h c Wx bx Wh bh Wc bc r f

/-- `next_c` as an array. -/
def nextC : FVec Ideal ⟨2, ![32768, 512]⟩ .f32 := fun i => cellC x h c Wx bx Wh bh Wc bc (i 0) (i 1)

/-- `next_h` as an array. -/
def nextH : FVec Ideal ⟨2, ![32768, 512]⟩ .f32 := fun i => cellH x h c Wx bx Wh bh Wc bc (i 0) (i 1)

theorem nextC_apply (r : Fin 32768) (f : Fin 512) :
    nextC x h c Wx bx Wh bh Wc bc (ix2 r f) = cellC x h c Wx bx Wh bh Wc bc r f := rfl

theorem nextH_apply (r : Fin 32768) (f : Fin 512) :
    nextH x h c Wx bx Wh bh Wc bc (ix2 r f) = cellH x h c Wx bx Wh bh Wc bc r f := rfl

end Cert.Cell

end
-- ==== Proof.Payloads.lean ====
/-
  The kernel body's arithmetic at one entry of a block.

  The body multiplies a [512, 512] block of activations (rows of x, h, c, or of the new cell state) into a resident
  weight laid out [512, N] (N = 2048, 1024 or 512: the gates' weight rows side by side as columns), adds a bias row
  [1, N] broadcast down the rows, and cuts the [512, N] result into the gates' [512, 512] column ranges. Read at an
  entry (p, q), the product into a zero accumulator is the plain sum over the contracted coordinate e of
  block[p, e] · weight[e, q]; the broadcast bias is its entry [0, q]; a column slice at offset `off` reads column
  `off + f`. Hence each gate pre-activation of the body is the specification's `lin` of a row of the block and a
  column of the weight.
-/
import proofs.«107787_j20761871908970_1_alg».proof.Proof.Gen.KernelIdeal.Skeleton
import proofs.«107787_j20761871908970_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Cell

open Cert.KernelIdeal Cert.KernelIdeal.Gen Idealize.ShloMosaic Idealize.ShloMosaic.ValueIdx

/-! ## The three matrix products at an entry

For each of the body's three product shapes, the operand indices of the product at output entry `i` and contraction
index `q`: the left operand is read at (i₀, q), the right at (q, i₁). -/

theorem lhs_w4_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_w4_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_w4_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_w4_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A block times the four-gate weight, into a zero accumulator, at entry (p, q). -/
theorem matmul_w4 (l : FVec Ideal S512x512 .bf16) (r : FVec Ideal S512x2048 .bf16) (p : Fin 512) (q : Fin 2048) :
    matmul dot_S512x512_S512x2048_S512x2048_1_0_0_1_n_n none l r (constant S512x2048 .f32 0x00000000#32) (ix2 p q)
      = ∑ e : Fin 512, l (ix2 p e) * r (ix2 e q) := by
  show FloatOps.matmul dot_S512x512_S512x2048_S512x2048_1_0_0_1_n_n none l r (constant S512x2048 .f32 0x00000000#32) (ix2 p q) = _
  rw [Ideal.matmul_constant_zero_apply, ← Equiv.sum_comp (contrEquiv1 dot_S512x512_S512x2048_S512x2048_1_0_0_1_n_n 512 rfl rfl).symm]
  refine Finset.sum_congr rfl fun e _ => ?_
  have hk := contrEquiv1_symm_val dot_S512x512_S512x2048_S512x2048_1_0_0_1_n_n 512 rfl rfl e
  have el : dot_S512x512_S512x2048_S512x2048_1_0_0_1_n_n.lhsIdx (ix2 p q) ((contrEquiv1 dot_S512x512_S512x2048_S512x2048_1_0_0_1_n_n 512 rfl rfl).symm e) = ix2 p e := funext fun a => Fin.ext (by
    match a with
    | ⟨0, _⟩ => exact lhs_w4_0 _ _
    | ⟨1, _⟩ => exact (lhs_w4_1 _ _).trans hk)
  have er : dot_S512x512_S512x2048_S512x2048_1_0_0_1_n_n.rhsIdx (ix2 p q) ((contrEquiv1 dot_S512x512_S512x2048_S512x2048_1_0_0_1_n_n 512 rfl rfl).symm e) = ix2 e q := funext fun a => Fin.ext (by
    match a with
    | ⟨0, _⟩ => exact (rhs_w4_0 _ _).trans hk
    | ⟨1, _⟩ => exact rhs_w4_1 _ _)
  rw [el, er]

theorem lhs_w2_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_w2_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_w2_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_w2_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- A block times the two-gate peephole weight, into a zero accumulator, at entry (p, q). -/
theorem matmul_w2 (l : FVec Ideal S512x512 .bf16) (r : FVec Ideal S512x1024 .bf16) (p : Fin 512) (q : Fin 1024) :
    matmul dot_S512x512_S512x1024_S512x1024_1_0_0_1_n_n none l r (constant S512x1024 .f32 0x00000000#32) (ix2 p q)
      = ∑ e : Fin 512, l (ix2 p e) * r (ix2 e q) := by
  show FloatOps.matmul dot_S512x512_S512x1024_S512x1024_1_0_0_1_n_n none l r (constant S512x1024 .f32 0x00000000#32) (ix2 p q) = _
  rw [Ideal.matmul_constant_zero_apply, ← Equiv.sum_comp (contrEquiv1 dot_S512x512_S512x1024_S512x1024_1_0_0_1_n_n 512 rfl rfl).symm]
  refine Finset.sum_congr rfl fun e _ => ?_
  have hk := contrEquiv1_symm_val dot_S512x512_S512x1024_S512x1024_1_0_0_1_n_n 512 rfl rfl e
  have el : dot_S512x512_S512x1024_S512x1024_1_0_0_1_n_n.lhsIdx (ix2 p q) ((contrEquiv1 dot_S512x512_S512x1024_S512x1024_1_0_0_1_n_n 512 rfl rfl).symm e) = ix2 p e := funext fun a => Fin.ext (by
    match a with
    | ⟨0, _⟩ => exact lhs_w2_0 _ _
    | ⟨1, _⟩ => exact (lhs_w2_1 _ _).trans hk)
  have er : dot_S512x512_S512x1024_S512x1024_1_0_0_1_n_n.rhsIdx (ix2 p q) ((contrEquiv1 dot_S512x512_S512x1024_S512x1024_1_0_0_1_n_n 512 rfl rfl).symm e) = ix2 e q := funext fun a => Fin.ext (by
    match a with
    | ⟨0, _⟩ => exact (rhs_w2_0 _ _).trans hk
    | ⟨1, _⟩ => exact rhs_w2_1 _ _)
  rw [el, er]

theorem lhs_w1_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_w1_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_w1_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_w1_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The new cell state's block times the output gate's peephole weight, into a zero accumulator, at entry (p, q). -/
theorem matmul_w1 (l : FVec Ideal S512x512 .bf16) (r : FVec Ideal S512x512 .bf16) (p : Fin 512) (q : Fin 512) :
    matmul dot_S512x512_S512x512_S512x512_1_0_0_1_n_n none l r (constant S512x512 .f32 0x00000000#32) (ix2 p q)
      = ∑ e : Fin 512, l (ix2 p e) * r (ix2 e q) := by
  show FloatOps.matmul dot_S512x512_S512x512_S512x512_1_0_0_1_n_n none l r (constant S512x512 .f32 0x00000000#32) (ix2 p q) = _
  rw [Ideal.matmul_constant_zero_apply, ← Equiv.sum_comp (contrEquiv1 dot_S512x512_S512x512_S512x512_1_0_0_1_n_n 512 rfl rfl).symm]
  refine Finset.sum_congr rfl fun e _ => ?_
  have hk := contrEquiv1_symm_val dot_S512x512_S512x512_S512x512_1_0_0_1_n_n 512 rfl rfl e
  have el : dot_S512x512_S512x512_S512x512_1_0_0_1_n_n.lhsIdx (ix2 p q) ((contrEquiv1 dot_S512x512_S512x512_S512x512_1_0_0_1_n_n 512 rfl rfl).symm e) = ix2 p e := funext fun a => Fin.ext (by
    match a with
    | ⟨0, _⟩ => exact lhs_w1_0 _ _
    | ⟨1, _⟩ => exact (lhs_w1_1 _ _).trans hk)
  have er : dot_S512x512_S512x512_S512x512_1_0_0_1_n_n.rhsIdx (ix2 p q) ((contrEquiv1 dot_S512x512_S512x512_S512x512_1_0_0_1_n_n 512 rfl rfl).symm e) = ix2 e q := funext fun a => Fin.ext (by
    match a with
    | ⟨0, _⟩ => exact (rhs_w1_0 _ _).trans hk
    | ⟨1, _⟩ => exact rhs_w1_1 _ _)
  rw [el, er]

/-! ## A bias row broadcast down the rows, and a column range of a wide value -/

/-- A [1, N] row broadcast to [512, N] reads the row's entry in the same column. -/
theorem bcast_row {N : Nat} (hN : N ≠ 1) {α : Type} (b : (⟨2, ![1, N]⟩ : Shape).Idx → α)
    (hb : (⟨2, ![1, N]⟩ : Shape).Broadcasts ⟨2, ![512, N]⟩) (p : Fin 512) (q : Fin N) :
    broadcastTo ⟨2, ![512, N]⟩ b hb (ix2 p q) = b (ix2 0 q) :=
  broadcastTo_apply b hb (ix2 p q) (ix2 0 q) (fun a => match a with
    | ⟨0, _⟩ => by show (0 : Nat) = if (1 : Nat) = 1 then 0 else p.val; rw [if_pos rfl]
    | ⟨1, _⟩ => by show q.val = if N = 1 then 0 else q.val; rw [if_neg hN])

/-- Columns `off … off + 511` of a [512, N] value: entry (p, f) of the slice is entry (p, off + f). -/
theorem slice_cols {N : Nat} {α : Type} (off : Nat) (v : (⟨2, ![512, N]⟩ : Shape).Idx → α)
    (hs : (⟨2, ![512, N]⟩ : Shape).Slices ![0, off] ⟨2, ![512, 512]⟩) (p f : Fin 512) (hq : off + f.val < N) :
    extractStridedSlice ⟨2, ![512, 512]⟩ ![0, off] v hs (ix2 p f) = v (ix2 p ⟨off + f.val, hq⟩) :=
  extractStridedSlice_apply ![0, off] v hs (ix2 p f) (ix2 p ⟨off + f.val, hq⟩) (fun a => match a with
    | ⟨0, _⟩ => by show p.val = 0 + p.val; omega
    | ⟨1, _⟩ => by show off + f.val = off + f.val; rfl)

/-! ## The gate pre-activations -/

/-- The x-projection of all four gates, at row p of the block and flattened column q. -/
theorem pay4_at (v0 : FVec Ideal S512x512 .f32) (v6 : FVec Ideal S512x2048 .bf16) (v15 : FVec Ideal S1x2048 .f32)
    (p : Fin 512) (q : Fin 2048) :
    k0_pay4 (F := Ideal) v0 v6 v15 (ix2 p q)
      = Cert.Cell.lin (fun e => v0 (ix2 p e)) (fun e => v6 (ix2 e q)) (v15 (ix2 0 q)) := by
  unfold k0_pay4 Cert.Cell.lin
  show matmul dot_S512x512_S512x2048_S512x2048_1_0_0_1_n_n none (truncf .bf16 v0 bitsLt_bf16_f32)
      (shapeCast S512x2048 v6 shapeCasts_S512x2048_S512x2048) (constant S512x2048 .f32 0x00000000#32) (ix2 p q)
    + broadcastTo S512x2048 (shapeCast S1x2048 v15 shapeCasts_S1x2048_S1x2048) broadcasts_S1x2048_S512x2048 (ix2 p q) = _
  rw [shapeCast_self, shapeCast_self, matmul_w4, bcast_row (by decide)]
  rfl

/-- The h-projection of all four gates: the same body text on the h block. -/
theorem pay5_at (v1 : FVec Ideal S512x512 .f32) (v8 : FVec Ideal S512x2048 .bf16) (v20 : FVec Ideal S1x2048 .f32)
    (p : Fin 512) (q : Fin 2048) :
    k0_pay5 (F := Ideal) v1 v8 v20 (ix2 p q)
      = Cert.Cell.lin (fun e => v1 (ix2 p e)) (fun e => v8 (ix2 e q)) (v20 (ix2 0 q)) := by
  unfold k0_pay5 Cert.Cell.lin
  show matmul dot_S512x512_S512x2048_S512x2048_1_0_0_1_n_n none (truncf .bf16 v1 bitsLt_bf16_f32)
      (shapeCast S512x2048 v8 shapeCasts_S512x2048_S512x2048) (constant S512x2048 .f32 0x00000000#32) (ix2 p q)
    + broadcastTo S512x2048 (shapeCast S1x2048 v20 shapeCasts_S1x2048_S1x2048) broadcasts_S1x2048_S512x2048 (ix2 p q) = _
  rw [shapeCast_self, shapeCast_self, matmul_w4, bcast_row (by decide)]
  rfl

/-- The old cell state's peephole projection for the input and forget gates. -/
theorem pay6_at (v2 : FVec Ideal S512x512 .f32) (v10 : FVec Ideal S512x1024 .bf16) (v25 : FVec Ideal S1x1024 .f32)
    (p : Fin 512) (q : Fin 1024) :
    k0_pay6 (F := Ideal) v2 v10 v25 (ix2 p q)
      = Cert.Cell.lin (fun e => v2 (ix2 p e)) (fun e => v10 (ix2 e q)) (v25 (ix2 0 q)) := by
  unfold k0_pay6 Cert.Cell.lin
  show matmul dot_S512x512_S512x1024_S512x1024_1_0_0_1_n_n none (truncf .bf16 v2 bitsLt_bf16_f32)
      (shapeCast S512x1024 v10 shapeCasts_S512x1024_S512x1024) (constant S512x1024 .f32 0x00000000#32) (ix2 p q)
    + broadcastTo S512x1024 (shapeCast S1x1024 v25 shapeCasts_S1x1024_S1x1024) broadcasts_S1x1024_S512x1024 (ix2 p q) = _
  rw [shapeCast_self, shapeCast_self, matmul_w2, bcast_row (by decide)]
  rfl

/-! ## The gates' column ranges of the x- and h-projections -/

theorem pay7_at (v0 : FVec Ideal S512x512 .f32) (v6 : FVec Ideal S512x2048 .bf16) (v15 : FVec Ideal S1x2048 .f32) (p f : Fin 512) :
    k0_pay7 (F := Ideal) v0 v6 v15 (ix2 p f) = k0_pay4 (F := Ideal) v0 v6 v15 (ix2 p ⟨0 + f.val, by have := f.isLt; omega⟩) := by
  unfold k0_pay7; exact slice_cols 0 _ _ p f _
theorem pay8_at (v0 : FVec Ideal S512x512 .f32) (v6 : FVec Ideal S512x2048 .bf16) (v15 : FVec Ideal S1x2048 .f32) (p f : Fin 512) :
    k0_pay8 (F := Ideal) v0 v6 v15 (ix2 p f) = k0_pay4 (F := Ideal) v0 v6 v15 (ix2 p ⟨512 + f.val, by have := f.isLt; omega⟩) := by
  unfold k0_pay8; exact slice_cols 512 _ _ p f _
theorem pay9_at (v0 : FVec Ideal S512x512 .f32) (v6 : FVec Ideal S512x2048 .bf16) (v15 : FVec Ideal S1x2048 .f32) (p f : Fin 512) :
    k0_pay9 (F := Ideal) v0 v6 v15 (ix2 p f) = k0_pay4 (F := Ideal) v0 v6 v15 (ix2 p ⟨1024 + f.val, by have := f.isLt; omega⟩) := by
  unfold k0_pay9; exact slice_cols 1024 _ _ p f _
theorem pay10_at (v0 : FVec Ideal S512x512 .f32) (v6 : FVec Ideal S512x2048 .bf16) (v15 : FVec Ideal S1x2048 .f32) (p f : Fin 512) :
    k0_pay10 (F := Ideal) v0 v6 v15 (ix2 p f) = k0_pay4 (F := Ideal) v0 v6 v15 (ix2 p ⟨1536 + f.val, by have := f.isLt; omega⟩) := by
  unfold k0_pay10; exact slice_cols 1536 _ _ p f _
theorem pay11_at (v1 : FVec Ideal S512x512 .f32) (v8 : FVec Ideal S512x2048 .bf16) (v20 : FVec Ideal S1x2048 .f32) (p f : Fin 512) :
    k0_pay11 (F := Ideal) v1 v8 v20 (ix2 p f) = k0_pay5 (F := Ideal) v1 v8 v20 (ix2 p ⟨0 + f.val, by have := f.isLt; omega⟩) := by
  unfold k0_pay11; exact slice_cols 0 _ _ p f _
theorem pay12_at (v1 : FVec Ideal S512x512 .f32) (v8 : FVec Ideal S512x2048 .bf16) (v20 : FVec Ideal S1x2048 .f32) (p f : Fin 512) :
    k0_pay12 (F := Ideal) v1 v8 v20 (ix2 p f) = k0_pay5 (F := Ideal) v1 v8 v20 (ix2 p ⟨512 + f.val, by have := f.isLt; omega⟩) := by
  unfold k0_pay12; exact slice_cols 512 _ _ p f _
theorem pay13_at (v1 : FVec Ideal S512x512 .f32) (v8 : FVec Ideal S512x2048 .bf16) (v20 : FVec Ideal S1x2048 .f32) (p f : Fin 512) :
    k0_pay13 (F := Ideal) v1 v8 v20 (ix2 p f) = k0_pay5 (F := Ideal) v1 v8 v20 (ix2 p ⟨1024 + f.val, by have := f.isLt; omega⟩) := by
  unfold k0_pay13; exact slice_cols 1024 _ _ p f _

/-! ## The two stored values at an entry -/

/-- The new cell state: forget · c + input · tanh(memory), from the gates' pre-activations. -/
theorem pay1_at (cb : FVec Ideal S512x512 .f32) (gh : FVec Ideal S512x2048 .f32) (gc : FVec Ideal S512x1024 .f32)
    (g0 g1 g3 h0 h1 : FVec Ideal S512x512 .f32) (p f : Fin 512) :
    k0_pay1 (F := Ideal) cb gh gc g0 g1 g3 h0 h1 (ix2 p f)
      = Ideal.logistic ((g1 (ix2 p f) + h1 (ix2 p f)) + gc (ix2 p ⟨512 + f.val, by have := f.isLt; omega⟩)) * cb (ix2 p f)
        + Ideal.logistic ((g0 (ix2 p f) + h0 (ix2 p f)) + gc (ix2 p ⟨0 + f.val, by have := f.isLt; omega⟩))
          * Ideal.tanh (g3 (ix2 p f) + gh (ix2 p ⟨1536 + f.val, by have := f.isLt; omega⟩)) := by
  unfold k0_pay1
  show FloatOps.addf (FloatOps.mulf (FloatOps.logistic (FloatOps.addf (FloatOps.addf (g1 (ix2 p f)) (h1 (ix2 p f)))
          (extractStridedSlice S512x512 ![0, 512] gc slices_S512x1024_o0_512_S512x512 (ix2 p f)))) (cb (ix2 p f)))
        (FloatOps.mulf (FloatOps.logistic (FloatOps.addf (FloatOps.addf (g0 (ix2 p f)) (h0 (ix2 p f)))
          (extractStridedSlice S512x512 ![0, 0] gc slices_S512x1024_o0_0_S512x512 (ix2 p f))))
          (FloatOps.tanh (FloatOps.addf (g3 (ix2 p f))
            (extractStridedSlice S512x512 ![0, 1536] gh slices_S512x2048_o0_1536_S512x512 (ix2 p f))))) = _
  rw [slice_cols 512 gc _ p f (by have := f.isLt; omega), slice_cols 0 gc _ p f (by have := f.isLt; omega),
    slice_cols 1536 gh _ p f (by have := f.isLt; omega)]
  rfl

/-- The new hidden state: the output gate, which peeps at the new cell state's row through one more product, times the
    new cell state. -/
theorem pay2_at (cb : FVec Ideal S512x512 .f32) (w2 : FVec Ideal S512x512 .bf16) (gh : FVec Ideal S512x2048 .f32)
    (gc : FVec Ideal S512x1024 .f32) (g0 g1 g2 g3 h0 h1 h2 : FVec Ideal S512x512 .f32) (b2 : FVec Ideal S1x512 .f32)
    (p f : Fin 512) :
    k0_pay2 (F := Ideal) cb w2 gh gc g0 g1 g2 g3 h0 h1 h2 b2 (ix2 p f)
      = Ideal.logistic (((g2 (ix2 p f) + h2 (ix2 p f))
            + ∑ e : Fin 512, k0_pay1 (F := Ideal) cb gh gc g0 g1 g3 h0 h1 (ix2 p e) * w2 (ix2 e f)) + b2 (ix2 0 f))
        * k0_pay1 (F := Ideal) cb gh gc g0 g1 g3 h0 h1 (ix2 p f) := by
  unfold k0_pay2
  show FloatOps.mulf (FloatOps.logistic (FloatOps.addf (FloatOps.addf (FloatOps.addf (g2 (ix2 p f)) (h2 (ix2 p f)))
          (matmul dot_S512x512_S512x512_S512x512_1_0_0_1_n_n none
            (truncf .bf16 (k0_pay1 (F := Ideal) cb gh gc g0 g1 g3 h0 h1) bitsLt_bf16_f32) w2
            (constant S512x512 .f32 0x00000000#32) (ix2 p f)))
          (broadcastTo S512x512 (shapeCast S1x512 b2 shapeCasts_S1x512_S1x512) broadcasts_S1x512_S512x512 (ix2 p f))))
        (k0_pay1 (F := Ideal) cb gh gc g0 g1 g3 h0 h1 (ix2 p f)) = _
  rw [matmul_w1, shapeCast_self, bcast_row (by decide)]
  rfl

/-! ## From one grid point's blocks to the argument arrays -/

/-- What the input blocks of one grid point hold, in terms of the nine argument arrays: the three activation blocks are
    the rows `row p` of x, h and c; a resident weight holds gate `k`'s weight row `f` as its column `k·512 + f`
    (`W[k, f, e]` at row `e`), and a resident bias row holds `b[k, f]` in the same column; the output gate's peephole
    weight is `Wc[2]` transposed and its bias row is `bc[2]`. -/
structure Reads (x h c : FVec Ideal ⟨2, ![32768, 512]⟩ .f32)
    (Wx : FVec Ideal ⟨3, ![4, 512, 512]⟩ .f32) (bx : FVec Ideal ⟨2, ![4, 512]⟩ .f32)
    (Wh : FVec Ideal ⟨3, ![4, 512, 512]⟩ .f32) (bh : FVec Ideal ⟨2, ![4, 512]⟩ .f32)
    (Wc : FVec Ideal ⟨3, ![3, 512, 512]⟩ .f32) (bc : FVec Ideal ⟨2, ![3, 512]⟩ .f32)
    (xb hb cb : FVec Ideal S512x512 .f32) (wx wh : FVec Ideal S512x2048 .bf16) (wc : FVec Ideal S512x1024 .bf16)
    (w2 : FVec Ideal S512x512 .bf16) (bxr bhr : FVec Ideal S1x2048 .f32) (bcr : FVec Ideal S1x1024 .f32)
    (b2r : FVec Ideal S1x512 .f32) (row : Fin 512 → Fin 32768) : Prop where
  hx : ∀ p e : Fin 512, xb (ix2 p e) = x (ix2 (row p) e)
  hh : ∀ p e : Fin 512, hb (ix2 p e) = h (ix2 (row p) e)
  hc : ∀ p e : Fin 512, cb (ix2 p e) = c (ix2 (row p) e)
  hwx : ∀ (k : Fin 4) (off : Nat), off = k.val * 512 → ∀ (f e : Fin 512) (hq : off + f.val < 2048),
    wx (ix2 e ⟨off + f.val, hq⟩) = Wx (ix3 k f e)
  hwh : ∀ (k : Fin 4) (off : Nat), off = k.val * 512 → ∀ (f e : Fin 512) (hq : off + f.val < 2048),
    wh (ix2 e ⟨off + f.val, hq⟩) = Wh (ix3 k f e)
  hwc : ∀ (k : Fin 3) (off : Nat), off = k.val * 512 → ∀ (f e : Fin 512) (hq : off + f.val < 1024),
    wc (ix2 e ⟨off + f.val, hq⟩) = Wc (ix3 k f e)
  hw2 : ∀ f e : Fin 512, w2 (ix2 e f) = Wc (ix3 2 f e)
  hbx : ∀ (k : Fin 4) (off : Nat), off = k.val * 512 → ∀ (f : Fin 512) (hq : off + f.val < 2048),
    bxr (ix2 0 ⟨off + f.val, hq⟩) = bx (ix2 k f)
  hbh : ∀ (k : Fin 4) (off : Nat), off = k.val * 512 → ∀ (f : Fin 512) (hq : off + f.val < 2048),
    bhr (ix2 0 ⟨off + f.val, hq⟩) = bh (ix2 k f)
  hbc : ∀ (k : Fin 3) (off : Nat), off = k.val * 512 → ∀ (f : Fin 512) (hq : off + f.val < 1024),
    bcr (ix2 0 ⟨off + f.val, hq⟩) = bc (ix2 k f)
  hb2 : ∀ f : Fin 512, b2r (ix2 0 f) = bc (ix2 2 f)

/-- The output gate's peephole weight reaches the product as loaded. -/
theorem pay3_eq (w : FVec Ideal S512x512 .bf16) : k0_pay3 (F := Ideal) w = w := by
  unfold k0_pay3; exact shapeCast_self _ _

section Block

variable {x h c : FVec Ideal ⟨2, ![32768, 512]⟩ .f32}
  {Wx : FVec Ideal ⟨3, ![4, 512, 512]⟩ .f32} {bx : FVec Ideal ⟨2, ![4, 512]⟩ .f32}
  {Wh : FVec Ideal ⟨3, ![4, 512, 512]⟩ .f32} {bh : FVec Ideal ⟨2, ![4, 512]⟩ .f32}
  {Wc : FVec Ideal ⟨3, ![3, 512, 512]⟩ .f32} {bc : FVec Ideal ⟨2, ![3, 512]⟩ .f32}
  {xb hb cb : FVec Ideal S512x512 .f32} {wx wh : FVec Ideal S512x2048 .bf16} {wc : FVec Ideal S512x1024 .bf16}
  {w2 : FVec Ideal S512x512 .bf16} {bxr bhr : FVec Ideal S1x2048 .f32} {bcr : FVec Ideal S1x1024 .f32}
  {b2r : FVec Ideal S1x512 .f32} {row : Fin 512 → Fin 32768}
  (R : Reads x h c Wx bx Wh bh Wc bc xb hb cb wx wh wc w2 bxr bhr bcr b2r row)

include R

/-- Gate `k`'s projection of the input, as the body computes it from the blocks. -/
theorem gx_at (k : Fin 4) (off : Nat) (hoff : off = k.val * 512) (p f : Fin 512) (hq : off + f.val < 2048) :
    k0_pay4 (F := Ideal) xb wx bxr (ix2 p ⟨off + f.val, hq⟩)
      = Cert.Cell.lin (fun e => x (ix2 (row p) e)) (fun e => Wx (ix3 k f e)) (bx (ix2 k f)) := by
  rw [pay4_at]; unfold Cert.Cell.lin
  rw [R.hbx k off hoff f hq]
  congr 1
  exact Finset.sum_congr rfl fun e _ => by
    show xb (ix2 p e) * wx (ix2 e ⟨off + f.val, hq⟩) = x (ix2 (row p) e) * Wx (ix3 k f e)
    rw [R.hx p e, R.hwx k off hoff f e hq]

/-- Gate `k`'s projection of the hidden state. -/
theorem gh_at (k : Fin 4) (off : Nat) (hoff : off = k.val * 512) (p f : Fin 512) (hq : off + f.val < 2048) :
    k0_pay5 (F := Ideal) hb wh bhr (ix2 p ⟨off + f.val, hq⟩)
      = Cert.Cell.lin (fun e => h (ix2 (row p) e)) (fun e => Wh (ix3 k f e)) (bh (ix2 k f)) := by
  rw [pay5_at]; unfold Cert.Cell.lin
  rw [R.hbh k off hoff f hq]
  congr 1
  exact Finset.sum_congr rfl fun e _ => by
    show hb (ix2 p e) * wh (ix2 e ⟨off + f.val, hq⟩) = h (ix2 (row p) e) * Wh (ix3 k f e)
    rw [R.hh p e, R.hwh k off hoff f e hq]

/-- Gate `k`'s peephole projection of the old cell state. -/
theorem gc_at (k : Fin 3) (off : Nat) (hoff : off = k.val * 512) (p f : Fin 512) (hq : off + f.val < 1024) :
    k0_pay6 (F := Ideal) cb wc bcr (ix2 p ⟨off + f.val, hq⟩)
      = Cert.Cell.lin (fun e => c (ix2 (row p) e)) (fun e => Wc (ix3 k f e)) (bc (ix2 k f)) := by
  rw [pay6_at]; unfold Cert.Cell.lin
  rw [R.hbc k off hoff f hq]
  congr 1
  exact Finset.sum_congr rfl fun e _ => by
    show cb (ix2 p e) * wc (ix2 e ⟨off + f.val, hq⟩) = c (ix2 (row p) e) * Wc (ix3 k f e)
    rw [R.hc p e, R.hwc k off hoff f e hq]

/-- What the body stores to the `next_c` block, at entry (p, f): the specification's new cell state at row `row p`. -/
theorem nextC_block (p f : Fin 512) :
    k0_pay1 (F := Ideal) cb (k0_pay5 hb wh bhr) (k0_pay6 cb wc bcr) (k0_pay7 xb wx bxr) (k0_pay8 xb wx bxr)
        (k0_pay10 xb wx bxr) (k0_pay11 hb wh bhr) (k0_pay12 hb wh bhr) (ix2 p f)
      = Cert.Cell.cellC x h c Wx bx Wh bh Wc bc (row p) f := by
  rw [pay1_at, pay8_at, pay12_at, pay7_at, pay11_at, pay10_at,
    gx_at R 1 512 rfl, gh_at R 1 512 rfl, gc_at R 1 512 rfl, gx_at R 0 0 rfl, gh_at R 0 0 rfl, gc_at R 0 0 rfl,
    gx_at R 3 1536 rfl, gh_at R 3 1536 rfl, R.hc p f]
  rfl

/-- What the body stores to the `next_h` block, at entry (p, f): the specification's new hidden state at row `row p`. -/
theorem nextH_block (p f : Fin 512) :
    k0_pay2 (F := Ideal) cb (k0_pay3 w2) (k0_pay5 hb wh bhr) (k0_pay6 cb wc bcr) (k0_pay7 xb wx bxr) (k0_pay8 xb wx bxr)
        (k0_pay9 xb wx bxr) (k0_pay10 xb wx bxr) (k0_pay11 hb wh bhr) (k0_pay12 hb wh bhr) (k0_pay13 hb wh bhr) b2r (ix2 p f)
      = Cert.Cell.cellH x h c Wx bx Wh bh Wc bc (row p) f := by
  rw [pay2_at]
  have hsum : (∑ e : Fin 512, k0_pay1 (F := Ideal) cb (k0_pay5 hb wh bhr) (k0_pay6 cb wc bcr) (k0_pay7 xb wx bxr)
        (k0_pay8 xb wx bxr) (k0_pay10 xb wx bxr) (k0_pay11 hb wh bhr) (k0_pay12 hb wh bhr) (ix2 p e)
          * k0_pay3 (F := Ideal) w2 (ix2 e f))
      = ∑ e : Fin 512, Cert.Cell.cellC x h c Wx bx Wh bh Wc bc (row p) e * Wc (ix3 2 f e) :=
    Finset.sum_congr rfl fun e _ => by rw [nextC_block R p e, pay3_eq, R.hw2 f e]
  rw [hsum, nextC_block R p f, pay9_at, pay13_at, gx_at R 2 1024 rfl, gh_at R 2 1024 rfl, R.hb2 f]
  rfl

end Block

end Cert.KernelIdeal.Cell

end
-- ==== Proof.HostSide.lean ====
/-
  The resident operands as the launch finds them.

  Before the launch the host re-lays the stacked weights so that each grid step needs only plain products:
  `Wx[k, f, e]` is moved to row `e`, column `k·512 + f` of a [512, 2048] matrix (transpose to [e, k, f], then
  flatten the last two axes), likewise `Wh`; the first two peephole weights `Wc[0], Wc[1]` the same way into
  [512, 1024]; the third, `Wc[2]`, is transposed to [e, f]; the biases are flattened to rows [1, K·512] with
  `b[k, f]` in column `k·512 + f`, and `bc[2]` is a row [1, 512]. The conversions to bf16 do not change an
  extended real. Each lemma below reads one of these arrays at an entry and lands on the argument's entry.
-/
import proofs.«107787_j20761871908970_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Cell

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays as terms over the arguments -/

theorem V_wx (c : Dev nD) : V m c main_v2 = truncf (F := Ideal) .bf16 (shapeCast S512x2048 (transpose S512x4x512 [2, 0, 1]
    (m ((c : Thread nD τ).loc main_arg3)) transposes_S4x512x512_S512x4x512_2_0_1) shapeCasts_S512x4x512_S512x2048) bitsLt_bf16_f32 := by
  unfold V; after_results; rfl

theorem V_wh (c : Dev nD) : V m c main_v5 = truncf (F := Ideal) .bf16 (shapeCast S512x2048 (transpose S512x4x512 [2, 0, 1]
    (m ((c : Thread nD τ).loc main_arg5)) transposes_S4x512x512_S512x4x512_2_0_1) shapeCasts_S512x4x512_S512x2048) bitsLt_bf16_f32 := by
  unfold V; after_results; rfl

theorem V_wc (c : Dev nD) : V m c main_v9 = truncf (F := Ideal) .bf16 (shapeCast S512x1024 (transpose S512x2x512 [2, 0, 1]
    (extractStridedSlice S2x512x512 ![0, 0, 0] (m ((c : Thread nD τ).loc main_arg7)) slices_S3x512x512_S2x512x512_0_0_0)
    transposes_S2x512x512_S512x2x512_2_0_1) shapeCasts_S512x2x512_S512x1024) bitsLt_bf16_f32 := by
  unfold V; after_results; rfl

theorem V_w2 (c : Dev nD) : V m c main_v13 = truncf (F := Ideal) .bf16 (transpose S512x512 [1, 0] (shapeCast S512x512
    (extractStridedSlice S1x512x512 ![2, 0, 0] (m ((c : Thread nD τ).loc main_arg7)) slices_S3x512x512_S1x512x512_2_0_0)
    shapeCasts_S1x512x512_S512x512) transposes_S512x512_S512x512_1_0) bitsLt_bf16_f32 := by
  unfold V; after_results; rfl

theorem V_bx (c : Dev nD) : V m c main_v14 = shapeCast S1x2048 (m ((c : Thread nD τ).loc main_arg4)) shapeCasts_S4x512_S1x2048 := by
  unfold V; after_results; rfl

theorem V_bh (c : Dev nD) : V m c main_v15 = shapeCast S1x2048 (m ((c : Thread nD τ).loc main_arg6)) shapeCasts_S4x512_S1x2048 := by
  unfold V; after_results; rfl

theorem V_bc (c : Dev nD) : V m c main_v17 = shapeCast S1x1024 (extractStridedSlice S2x512 ![0, 0]
    (m ((c : Thread nD τ).loc main_arg8)) slices_S3x512_S2x512_0_0) shapeCasts_S2x512_S1x1024 := by
  unfold V; after_results; rfl

theorem V_b2 (c : Dev nD) : V m c main_v20 = shapeCast S1x512 (shapeCast S512 (extractStridedSlice S1x512 ![2, 0]
    (m ((c : Thread nD τ).loc main_arg8)) slices_S3x512_S1x512_2_0) shapeCasts_S1x512_S512) shapeCasts_S512_S1x512 := by
  unfold V; after_results; rfl

/-! ## Read at an entry -/

/-- Row e, column k·512 + f of the re-laid input weight is `Wx[k, f, e]`. -/
theorem wx_at (c : Dev nD) (k : Fin 4) (off : Nat) (hoff : off = k.val * 512) (f e : Fin 512) (hq : off + f.val < 2048) :
    V m c main_v2 (ix2 e ⟨off + f.val, hq⟩) = m ((c : Thread nD τ).loc main_arg3) (ix3 k f e) := by
  rw [V_wx]
  show shapeCast S512x2048 (transpose S512x4x512 [2, 0, 1] (m ((c : Thread nD τ).loc main_arg3))
    transposes_S4x512x512_S512x4x512_2_0_1) shapeCasts_S512x4x512_S512x2048 (ix2 e ⟨off + f.val, hq⟩) = _
  refine (shapeCast_apply _ _ (ix2 e ⟨off + f.val, hq⟩) (ix3 e k f) ?_).trans ?_
  · rewrite [Shape.rowMajor_val_three, Shape.rowMajor_val_two]
    show (e.val * 4 + k.val) * 512 + f.val = e.val * 2048 + (off + f.val)
    omega
  · exact transpose_apply [2, 0, 1] _ _ (ix3 e k f) (ix3 k f e) (fun b => match b with
      | ⟨0, _⟩ => rfl
      | ⟨1, _⟩ => rfl
      | ⟨2, _⟩ => rfl)

/-- The same for the hidden state's weight. -/
theorem wh_at (c : Dev nD) (k : Fin 4) (off : Nat) (hoff : off = k.val * 512) (f e : Fin 512) (hq : off + f.val < 2048) :
    V m c main_v5 (ix2 e ⟨off + f.val, hq⟩) = m ((c : Thread nD τ).loc main_arg5) (ix3 k f e) := by
  rw [V_wh]
  show shapeCast S512x2048 (transpose S512x4x512 [2, 0, 1] (m ((c : Thread nD τ).loc main_arg5))
    transposes_S4x512x512_S512x4x512_2_0_1) shapeCasts_S512x4x512_S512x2048 (ix2 e ⟨off + f.val, hq⟩) = _
  refine (shapeCast_apply _ _ (ix2 e ⟨off + f.val, hq⟩) (ix3 e k f) ?_).trans ?_
  · rewrite [Shape.rowMajor_val_three, Shape.rowMajor_val_two]
    show (e.val * 4 + k.val) * 512 + f.val = e.val * 2048 + (off + f.val)
    omega
  · exact transpose_apply [2, 0, 1] _ _ (ix3 e k f) (ix3 k f e) (fun b => match b with
      | ⟨0, _⟩ => rfl
      | ⟨1, _⟩ => rfl
      | ⟨2, _⟩ => rfl)

/-- Row e, column k·512 + f (k = 0, 1) of the re-laid peephole weight is `Wc[k, f, e]`. -/
theorem wc_at (c : Dev nD) (k : Fin 3) (off : Nat) (hoff : off = k.val * 512) (f e : Fin 512) (hq : off + f.val < 1024) :
    V m c main_v9 (ix2 e ⟨off + f.val, hq⟩) = m ((c : Thread nD τ).loc main_arg7) (ix3 k f e) := by
  have hk2 : k.val < 2 := by omega
  rw [V_wc]
  show shapeCast S512x1024 (transpose S512x2x512 [2, 0, 1]
    (extractStridedSlice S2x512x512 ![0, 0, 0] (m ((c : Thread nD τ).loc main_arg7)) slices_S3x512x512_S2x512x512_0_0_0)
    transposes_S2x512x512_S512x2x512_2_0_1) shapeCasts_S512x2x512_S512x1024 (ix2 e ⟨off + f.val, hq⟩) = _
  refine (shapeCast_apply _ _ (ix2 e ⟨off + f.val, hq⟩) (ix3 e (⟨k.val, hk2⟩ : Fin 2) f) ?_).trans ?_
  · rewrite [Shape.rowMajor_val_three, Shape.rowMajor_val_two]
    show (e.val * 2 + k.val) * 512 + f.val = e.val * 1024 + (off + f.val)
    omega
  refine (transpose_apply [2, 0, 1] _ _ (ix3 e (⟨k.val, hk2⟩ : Fin 2) f) (ix3 (⟨k.val, hk2⟩ : Fin 2) f e) (fun b => match b with
      | ⟨0, _⟩ => rfl
      | ⟨1, _⟩ => rfl
      | ⟨2, _⟩ => rfl)).trans ?_
  exact extractStridedSlice_apply ![0, 0, 0] _ _ (ix3 (⟨k.val, hk2⟩ : Fin 2) f e) (ix3 k f e) (fun a => match a with
    | ⟨0, _⟩ => by show k.val = 0 + k.val; omega
    | ⟨1, _⟩ => by show f.val = 0 + f.val; omega
    | ⟨2, _⟩ => by show e.val = 0 + e.val; omega)

/-- Entry (e, f) of the output gate's peephole weight is `Wc[2, f, e]`. -/
theorem w2_at (c : Dev nD) (f e : Fin 512) :
    V m c main_v13 (ix2 e f) = m ((c : Thread nD τ).loc main_arg7) (ix3 (2 : Fin 3) f e) := by
  rw [V_w2]
  show transpose S512x512 [1, 0] (shapeCast S512x512
    (extractStridedSlice S1x512x512 ![2, 0, 0] (m ((c : Thread nD τ).loc main_arg7)) slices_S3x512x512_S1x512x512_2_0_0)
    shapeCasts_S1x512x512_S512x512) transposes_S512x512_S512x512_1_0 (ix2 e f) = _
  refine (transpose_apply [1, 0] _ _ (ix2 e f) (ix2 f e) (fun b => match b with
      | ⟨0, _⟩ => rfl
      | ⟨1, _⟩ => rfl)).trans ?_
  refine (shapeCast_apply _ _ (ix2 f e) (ix3 (0 : Fin 1) f e) ?_).trans ?_
  · rewrite [Shape.rowMajor_val_three, Shape.rowMajor_val_two]
    show (0 * 512 + f.val) * 512 + e.val = f.val * 512 + e.val
    omega
  exact extractStridedSlice_apply ![2, 0, 0] _ _ (ix3 (0 : Fin 1) f e) (ix3 (2 : Fin 3) f e) (fun a => match a with
    | ⟨0, _⟩ => by show (2 : Nat) = 2 + 0; rfl
    | ⟨1, _⟩ => by show f.val = 0 + f.val; omega
    | ⟨2, _⟩ => by show e.val = 0 + e.val; omega)

/-- Column k·512 + f of the flattened input bias is `bx[k, f]`. -/
theorem bx_at (c : Dev nD) (k : Fin 4) (off : Nat) (hoff : off = k.val * 512) (f : Fin 512) (hq : off + f.val < 2048) :
    V m c main_v14 (ix2 0 ⟨off + f.val, hq⟩) = m ((c : Thread nD τ).loc main_arg4) (ix2 k f) := by
  rw [V_bx]
  refine shapeCast_apply _ _ (ix2 (0 : Fin 1) ⟨off + f.val, hq⟩) (ix2 k f) ?_
  rewrite [Shape.rowMajor_val_two, Shape.rowMajor_val_two]
  show k.val * 512 + f.val = 0 * 2048 + (off + f.val)
  omega

/-- The same for the hidden state's bias. -/
theorem bh_at (c : Dev nD) (k : Fin 4) (off : Nat) (hoff : off = k.val * 512) (f : Fin 512) (hq : off + f.val < 2048) :
    V m c main_v15 (ix2 0 ⟨off + f.val, hq⟩) = m ((c : Thread nD τ).loc main_arg6) (ix2 k f) := by
  rw [V_bh]
  refine shapeCast_apply _ _ (ix2 (0 : Fin 1) ⟨off + f.val, hq⟩) (ix2 k f) ?_
  rewrite [Shape.rowMajor_val_two, Shape.rowMajor_val_two]
  show k.val * 512 + f.val = 0 * 2048 + (off + f.val)
  omega

/-- Column k·512 + f (k = 0, 1) of the flattened peephole bias is `bc[k, f]`. -/
theorem bc_at (c : Dev nD) (k : Fin 3) (off : Nat) (hoff : off = k.val * 512) (f : Fin 512) (hq : off + f.val < 1024) :
    V m c main_v17 (ix2 0 ⟨off + f.val, hq⟩) = m ((c : Thread nD τ).loc main_arg8) (ix2 k f) := by
  have hk2 : k.val < 2 := by omega
  rw [V_bc]
  refine (shapeCast_apply _ _ (ix2 (0 : Fin 1) ⟨off + f.val, hq⟩) (ix2 (⟨k.val, hk2⟩ : Fin 2) f) ?_).trans ?_
  · rewrite [Shape.rowMajor_val_two, Shape.rowMajor_val_two]
    show k.val * 512 + f.val = 0 * 1024 + (off + f.val)
    omega
  exact extractStridedSlice_apply ![0, 0] _ _ (ix2 (⟨k.val, hk2⟩ : Fin 2) f) (ix2 k f) (fun a => match a with
    | ⟨0, _⟩ => by show k.val = 0 + k.val; omega
    | ⟨1, _⟩ => by show f.val = 0 + f.val; omega)

/-- Column f of the output gate's bias row is `bc[2, f]`. -/
theorem b2_at (c : Dev nD) (f : Fin 512) :
    V m c main_v20 (ix2 0 f) = m ((c : Thread nD τ).loc main_arg8) (ix2 (2 : Fin 3) f) := by
  rw [V_b2]
  refine (shapeCast_apply _ _ (ix2 (0 : Fin 1) f) (ix1 f) ?_).trans ?_
  · rewrite [Shape.rowMajor_val_one, Shape.rowMajor_val_two]
    show f.val = 0 * 512 + f.val
    omega
  refine (shapeCast_apply _ _ (ix1 f) (ix2 (0 : Fin 1) f) ?_).trans ?_
  · rewrite [Shape.rowMajor_val_two, Shape.rowMajor_val_one]
    show 0 * 512 + f.val = f.val
    omega
  exact extractStridedSlice_apply ![2, 0] _ _ (ix2 (0 : Fin 1) f) (ix2 (2 : Fin 3) f) (fun a => match a with
    | ⟨0, _⟩ => by show (2 : Nat) = 2 + 0; rfl
    | ⟨1, _⟩ => by show f.val = 0 + f.val; omega)

end Cert.KernelIdeal.Cell

end
-- ==== Proof.KernelValue.lean ====
/-
  From what each grid point writes back to the two whole result arrays.

  The grid has 64 points; point t stages rows t·512 … t·512 + 511 of x, h and c, keeps the re-laid weights and biases
  resident (their windows sit at block 0 at every point), and writes back rows t·512 … of `next_h` and `next_c`.
  So the blocks of point t read the argument arrays as the block-level lemmas ask (`Reads`, with `row p = t·512 + p`),
  what point t writes back is block t of the specification's `nextH` / `nextC`, and since every row r lies in the
  block of point r / 512 the 64 blocks cover both arrays: after the run they ARE `nextH` and `nextC` of the arguments.
-/
import proofs.«107787_j20761871908970_1_alg».proof.Proof.Gen.KernelIdeal.Value
import proofs.«107787_j20761871908970_1_alg».proof.Proof.Payloads
import proofs.«107787_j20761871908970_1_alg».proof.Proof.HostSide

noncomputable section

namespace Cert.KernelIdeal.Cell

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 64 grid points -/

/-- The activation windows and the two result windows move down the rows with the grid point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weight and bias windows stay at block (0, 0). -/
theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The array row that row p of point t's blocks is. -/
def rowAt (t : Fin cfg0.N) (p : Fin 512) : Fin 32768 :=
  ⟨t.val * 512 + p.val, by
    have ht : t.val < 64 := lt_of_lt_of_eq t.isLt N_0
    have hp := p.isLt
    omega⟩

/-! ## What point t's blocks hold -/

theorem reads (c : Dev nD) (t : Fin cfg0.N) :
    Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (rowAt t) := by
  obtain ⟨a0, a1, b0, b1, c0, c1, -, -, -, -⟩ := idx_rows t
  obtain ⟨d0, d1, e0, e1, f0, f1, g0, g1, h0, h1, i0, i1, j0, j1, k0, k1⟩ := idx_resident t
  refine ⟨?_, ?_, ?_, ?_, ?_, ?_, ?_, ?_, ?_, ?_, ?_⟩
  · intro p e
    show V m c main_arg0 (((cfg0.win 0).blk t).view.emb (ix2 p e)) = _
    rw [V_main_arg0]
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 512 + 1 * e.val = e.val; omega
  · intro p e
    show V m c main_arg1 (((cfg0.win 1).blk t).view.emb (ix2 p e)) = _
    rw [V_main_arg1]
    refine congrArg _ (funext fun a => Fin.ext ?_)
    match a with
    | ⟨0, _⟩ => show win0_1.index t (0 : Fin 2) * 512 + 1 * p.val = t.val * 512 + p.val; omega
    | ⟨1, _⟩ => show win0_1.index t (1 : Fin 2) * 512 + 1 * e.val = e.val; omega
  · intro p e
    show V m c main_arg2 (((cfg0.win 2).blk t).view.emb (ix2 p e)) = _
    rw [V_main_arg2]
    refine congrArg _ (funext fun a => Fin.ext ?_)
    match a with
    | ⟨0, _⟩ => show win0_2.index t (0 : Fin 2) * 512 + 1 * p.val = t.val * 512 + p.val; omega
    | ⟨1, _⟩ => show win0_2.index t (1 : Fin 2) * 512 + 1 * e.val = e.val; omega
  · intro k off hoff f e hq
    show V m c main_v2 (((cfg0.win 3).blk t).view.emb (ix2 e ⟨off + f.val, hq⟩)) = _
    refine Eq.trans (congrArg _ (funext fun a => Fin.ext ?_)) (wx_at m c k off hoff f e hq)
    match a with
    | ⟨0, _⟩ => show win0_3.index t (0 : Fin 2) * 512 + 1 * e.val = e.val; omega
    | ⟨1, _⟩ => show win0_3.index t (1 : Fin 2) * 2048 + 1 * (off + f.val) = off + f.val; omega
  · intro k off hoff f e hq
    show V m c main_v5 (((cfg0.win 4).blk t).view.emb (ix2 e ⟨off + f.val, hq⟩)) = _
    refine Eq.trans (congrArg _ (funext fun a => Fin.ext ?_)) (wh_at m c k off hoff f e hq)
    match a with
    | ⟨0, _⟩ => show win0_4.index t (0 : Fin 2) * 512 + 1 * e.val = e.val; omega
    | ⟨1, _⟩ => show win0_4.index t (1 : Fin 2) * 2048 + 1 * (off + f.val) = off + f.val; omega
  · intro k off hoff f e hq
    show V m c main_v9 (((cfg0.win 5).blk t).view.emb (ix2 e ⟨off + f.val, hq⟩)) = _
    refine Eq.trans (congrArg _ (funext fun a => Fin.ext ?_)) (wc_at m c k off hoff f e hq)
    match a with
    | ⟨0, _⟩ => show win0_5.index t (0 : Fin 2) * 512 + 1 * e.val = e.val; omega
    | ⟨1, _⟩ => show win0_5.index t (1 : Fin 2) * 1024 + 1 * (off + f.val) = off + f.val; omega
  · intro f e
    show V m c main_v13 (((cfg0.win 6).blk t).view.emb (ix2 e f)) = _
    refine Eq.trans (congrArg _ (funext fun a => Fin.ext ?_)) (w2_at m c f e)
    match a with
    | ⟨0, _⟩ => show win0_6.index t (0 : Fin 2) * 512 + 1 * e.val = e.val; omega
    | ⟨1, _⟩ => show win0_6.index t (1 : Fin 2) * 512 + 1 * f.val = f.val; omega
  · intro k off hoff f hq
    show V m c main_v14 (((cfg0.win 7).blk t).view.emb (ix2 0 ⟨off + f.val, hq⟩)) = _
    refine Eq.trans (congrArg _ (funext fun a => Fin.ext ?_)) (bx_at m c k off hoff f hq)
    match a with
    | ⟨0, _⟩ => show win0_7.index t (0 : Fin 2) * 1 + 1 * 0 = 0; omega
    | ⟨1, _⟩ => show win0_7.index t (1 : Fin 2) * 2048 + 1 * (off + f.val) = off + f.val; omega
  · intro k off hoff f hq
    show V m c main_v15 (((cfg0.win 8).blk t).view.emb (ix2 0 ⟨off + f.val, hq⟩)) = _
    refine Eq.trans (congrArg _ (funext fun a => Fin.ext ?_)) (bh_at m c k off hoff f hq)
    match a with
    | ⟨0, _⟩ => show win0_8.index t (0 : Fin 2) * 1 + 1 * 0 = 0; omega
    | ⟨1, _⟩ => show win0_8.index t (1 : Fin 2) * 2048 + 1 * (off + f.val) = off + f.val; omega
  · intro k off hoff f hq
    show V m c main_v17 (((cfg0.win 9).blk t).view.emb (ix2 0 ⟨off + f.val, hq⟩)) = _
    refine Eq.trans (congrArg _ (funext fun a => Fin.ext ?_)) (bc_at m c k off hoff f hq)
    match a with
    | ⟨0, _⟩ => show win0_9.index t (0 : Fin 2) * 1 + 1 * 0 = 0; omega
    | ⟨1, _⟩ => show win0_9.index t (1 : Fin 2) * 1024 + 1 * (off + f.val) = off + f.val; omega
  · intro f
    show V m c main_v20 (((cfg0.win 10).blk t).view.emb (ix2 0 f)) = _
    refine Eq.trans (congrArg _ (funext fun a => Fin.ext ?_)) (b2_at m c f)
    match a with
    | ⟨0, _⟩ => show win0_10.index t (0 : Fin 2) * 1 + 1 * 0 = 0; omega
    | ⟨1, _⟩ => show win0_10.index t (1 : Fin 2) * 512 + 1 * f.val = f.val; omega

/-! ## What point t writes back -/

/-- Point t writes back block t of `nextC` of the arguments. -/
theorem flushedC (c : Dev nD) (t : Fin cfg0.N) :
    (dats m 0 c).flushed 12 t = ((cfg0.win 12).blk t).view.read (Elt Ideal) (Cert.Cell.nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed12]
  unfold out0_12
  rw [View.canon_unit_zero hz]
  simp only [View.ld_unit_zero (S := S512x512) hz, View.ld_unit_zero (S := S512x2048) hz, View.ld_unit_zero (S := S512x1024) hz,
    View.ld_unit_zero (S := S1x2048) hz, View.ld_unit_zero (S := S1x1024) hz]
  obtain ⟨-, -, -, -, -, -, -, -, r0, r1⟩ := idx_rows t
  funext j
  obtain ⟨p, f, rfl⟩ : ∃ (p : Fin 512) (f : Fin 512), j = ix2 p f := ⟨j 0, j 1, eq_ix2 j⟩
  show k0_pay1 (F := Ideal) (iblk m c 2 t) (k0_pay5 (iblk m c 1 t) (iblk m c 4 t) (iblk m c 8 t))
      (k0_pay6 (iblk m c 2 t) (iblk m c 5 t) (iblk m c 9 t)) (k0_pay7 (iblk m c 0 t) (iblk m c 3 t) (iblk m c 7 t))
      (k0_pay8 (iblk m c 0 t) (iblk m c 3 t) (iblk m c 7 t)) (k0_pay10 (iblk m c 0 t) (iblk m c 3 t) (iblk m c 7 t))
      (k0_pay11 (iblk m c 1 t) (iblk m c 4 t) (iblk m c 8 t)) (k0_pay12 (iblk m c 1 t) (iblk m c 4 t) (iblk m c 8 t)) (ix2 p f)
    = Cert.Cell.nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 12).blk t).view.emb (ix2 p f))
  refine (nextC_block (reads m c t) p f).trans ?_
  refine Eq.trans (Cert.Cell.nextC_apply _ _ _ _ _ _ _ _ _ (rowAt t p) f).symm (congrArg _ (funext fun a => Fin.ext ?_))
  match a with
  | ⟨0, _⟩ => show t.val * 512 + p.val = win0_12.index t (0 : Fin 2) * 512 + 1 * p.val; omega
  | ⟨1, _⟩ => show f.val = win0_12.index t (1 : Fin 2) * 512 + 1 * f.val; omega

/-- Point t writes back block t of `nextH` of the arguments. -/
theorem flushedH (c : Dev nD) (t : Fin cfg0.N) :
    (dats m 0 c).flushed 11 t = ((cfg0.win 11).blk t).view.read (Elt Ideal) (Cert.Cell.nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed11]
  unfold out0_11
  rw [View.canon_unit_zero hz]
  simp only [View.ld_unit_zero (S := S512x512) hz, View.ld_unit_zero (S := S512x2048) hz, View.ld_unit_zero (S := S512x1024) hz,
    View.ld_unit_zero (S := S1x2048) hz, View.ld_unit_zero (S := S1x1024) hz, View.ld_unit_zero (S := S1x512) hz]
  obtain ⟨-, -, -, -, -, -, r0, r1, -, -⟩ := idx_rows t
  funext j
  obtain ⟨p, f, rfl⟩ : ∃ (p : Fin 512) (f : Fin 512), j = ix2 p f := ⟨j 0, j 1, eq_ix2 j⟩
  show k0_pay2 (F := Ideal) (iblk m c 2 t) (k0_pay3 (iblk m c 6 t)) (k0_pay5 (iblk m c 1 t) (iblk m c 4 t) (iblk m c 8 t))
      (k0_pay6 (iblk m c 2 t) (iblk m c 5 t) (iblk m c 9 t)) (k0_pay7 (iblk m c 0 t) (iblk m c 3 t) (iblk m c 7 t))
      (k0_pay8 (iblk m c 0 t) (iblk m c 3 t) (iblk m c 7 t)) (k0_pay9 (iblk m c 0 t) (iblk m c 3 t) (iblk m c 7 t))
      (k0_pay10 (iblk m c 0 t) (iblk m c 3 t) (iblk m c 7 t)) (k0_pay11 (iblk m c 1 t) (iblk m c 4 t) (iblk m c 8 t))
      (k0_pay12 (iblk m c 1 t) (iblk m c 4 t) (iblk m c 8 t)) (k0_pay13 (iblk m c 1 t) (iblk m c 4 t) (iblk m c 8 t))
      (iblk m c 10 t) (ix2 p f)
    = Cert.Cell.nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb (ix2 p f))
  refine (nextH_block (reads m c t) p f).trans ?_
  refine Eq.trans (Cert.Cell.nextH_apply _ _ _ _ _ _ _ _ _ (rowAt t p) f).symm (congrArg _ (funext fun a => Fin.ext ?_))
  match a with
  | ⟨0, _⟩ => show t.val * 512 + p.val = win0_11.index t (0 : Fin 2) * 512 + 1 * p.val; omega
  | ⟨1, _⟩ => show f.val = win0_11.index t (1 : Fin 2) * 512 + 1 * f.val; omega

/-! ## The 64 blocks cover the arrays -/

theorem mem_blkC (t : Fin cfg0.N) (i : S32768x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v21_1).slice (win0_12.rect t)).set ↔ _
  rw [View.set_slice_whole, Rect.mem_set_unit]
  exact Iff.rfl

theorem mem_blkH (t : Fin cfg0.N) (i : S32768x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v21_0).slice (win0_11.rect t)).set ↔ _
  rw [View.set_slice_whole, Rect.mem_set_unit]
  exact Iff.rfl

/-- Row r of `next_c` is written by point r / 512. -/
theorem coverC (i : S32768x512.Idx) :
    ∃ t : Fin cfg0.N, (cfg0.win 12).flush t = true ∧ i ∈ ((cfg0.win 12).blk t).view.set := by
  have hi0 : (i 0).val < 32768 := (i 0).isLt
  have hi1 : (i 1).val < 512 := (i 1).isLt
  have hN : grid0.N = 64 := N_0
  let t : Fin cfg0.N := ⟨(i 0).val / 512, by show (i 0).val / 512 < grid0.N; omega⟩
  have htv : t.val = (i 0).val / 512 := rfl
  obtain ⟨-, -, -, -, -, -, -, -, r0, r1⟩ := idx_rows t
  refine ⟨t, flush0_12 t, ?_⟩
  rw [mem_blkC]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 512 ≤ (i 1).val ∧ (i 1).val < win0_12.index t (1 : Fin 2) * 512 + 512; omega

/-- Row r of `next_h` is written by point r / 512. -/
theorem coverH (i : S32768x512.Idx) :
    ∃ t : Fin cfg0.N, (cfg0.win 11).flush t = true ∧ i ∈ ((cfg0.win 11).blk t).view.set := by
  have hi0 : (i 0).val < 32768 := (i 0).isLt
  have hi1 : (i 1).val < 512 := (i 1).isLt
  have hN : grid0.N = 64 := N_0
  let t : Fin cfg0.N := ⟨(i 0).val / 512, by show (i 0).val / 512 < grid0.N; omega⟩
  have htv : t.val = (i 0).val / 512 := rfl
  obtain ⟨-, -, -, -, -, -, r0, r1, -, -⟩ := idx_rows t
  refine ⟨t, flush0_11 t, ?_⟩
  rw [mem_blkH]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-! ## The arrays after the run, and the run -/

theorem finalC (c : Dev nD) : (dats m 0 c).arrAt 12 cfg0.N = Cert.Cell.nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 12 _ (fun t _ => flushedC m c t) coverC

theorem finalH (c : Dev nD) : (dats m 0 c).arrAt 11 cfg0.N = Cert.Cell.nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 11 _ (fun t _ => flushedH m c t) coverH

/-- The kernel's run: both result arrays end at the specification's functions of the arguments, the arguments unchanged. -/
theorem run : θ_run defs (onTc (τ := τ) (main (F := Ideal))) ⟨m, fun _ => 0, ρ⟩ fun r => ∀ c : Dev nD,
      r.2.mem ((c : Thread nD τ).loc main_v21_0) = Cert.Cell.nextH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v21_1) = Cert.Cell.nextC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (finalH m c), (h c).2.1.trans (finalC m c), (h c).2.2⟩)
    (Value.run_blocks m ρ)

end Cert.KernelIdeal.Cell

end
-- ==== Proof.RefCell.lean ====
/-
  The reference program's two result stages are the cell's two arrays.

  The reference computes the Graves LSTM cell on whole arrays: three stacked projections
  (input, hidden state, old cell state, each an einsum against a stacked weight, transposed, plus a broadcast bias),
  gate slices of those, three sigmoids spelled 1 / (1 + e^(−z)), a tanh, and for the output gate one more product of
  the NEW cell state against the third peephole weight. Read at row r and feature f, every layout operation
  (transpose, broadcast, slice, reshape) only moves coordinates, every arithmetic operation acts on one element, and
  every contraction is a sum over the 512 input features; so each stage at (r, f) is an expression in the nine
  arguments' elements, and those expressions are the specification's: lin for a projection, xh and peep for the
  gate pre-activations, cellC for the new cell state and cellH for the new hidden state.

  The only law of the extended reals used is commutativity of the product (the reference multiplies weight by
  activation where the specification multiplies activation by weight); the sums are grouped alike on both sides.
-/
import proofs.«107787_j20761871908970_1_alg».proof.Proof.Gen.ReferenceIdeal.Read
import proofs.«107787_j20761871908970_1_alg».proof.Proof.Spec
import Idealize.ShloMosaic.Lib.IdealHost

noncomputable section

open scoped BigOperators

namespace Cert.ReferenceIdeal.Cell

open Cert.ReferenceIdeal Cert.ReferenceIdeal.Read Idealize.ShloMosaic Idealize.ShloMosaic.ValueIdx

/-! ## Indices by their coordinates -/

/-- An index of rank two is the pair of its coordinates' values. -/
theorem eq_ix2_of {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- An index of rank three is the triple of its coordinates' values. -/
theorem eq_ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d
  match d with
  | ⟨0, _⟩ => exact Fin.ext h0
  | ⟨1, _⟩ => exact Fin.ext h1
  | ⟨2, _⟩ => exact Fin.ext h2

/-- Row r, column f of an array with 512 columns sits at flat position r · 512 + f, and the two coordinates are
    recovered from it as quotient and remainder. -/
theorem unflat {n : Nat} (r : Fin n) (f : Fin 512) :
    (r.val * 512 + f.val) / 512 % n = r.val ∧ (r.val * 512 + f.val) % 512 = f.val := by
  have hf := f.isLt
  have h1 : (r.val * 512 + f.val) / 512 = r.val := by omega
  exact ⟨by rw [h1]; exact Nat.mod_eq_of_lt r.isLt, by omega⟩

/-! ## The argument arrays -/

/-- An activation array: 32768 rows of 512 features. -/
abbrev Act : Type := (⟨S32768x512, .f32⟩ : BufTy).Contents (Elt Ideal)
/-- Four stacked 512 × 512 weights. -/
abbrev W4 : Type := (⟨S4x512x512, .f32⟩ : BufTy).Contents (Elt Ideal)
/-- Four stacked biases. -/
abbrev B4 : Type := (⟨S4x512, .f32⟩ : BufTy).Contents (Elt Ideal)
/-- Three stacked 512 × 512 peephole weights. -/
abbrev W3 : Type := (⟨S3x512x512, .f32⟩ : BufTy).Contents (Elt Ideal)
/-- Three stacked peephole biases. -/
abbrev B3 : Type := (⟨S3x512, .f32⟩ : BufTy).Contents (Elt Ideal)

section
variable (x0 x1 x2 : Act) (x3 : W4) (x4 : B4) (x5 : W4) (x6 : B4) (x7 : W3) (x8 : B3)

/-! ## The three stacked projections at gate k, row r, feature f -/

/-- The input's projection: the einsum's element [k, f, r] is ∑ₑ Wx[k,f,e] · x[r,e]; the transpose reads it at
    [k, r, f], and the bias is broadcast along the rows. -/
theorem v4_at (k : Fin 4) (r : Fin 32768) (f : Fin 512) :
    val_main_v4 (F := Ideal) x0 x3 x4 (ix3 k r f)
      = Cert.Cell.lin (fun e => x0 (ix2 r e)) (fun e => x3 (ix3 k f e)) (x4 (ix2 k f)) := by
  rw [val_main_v4_apply, val_main_v1_apply, val_main_v0_apply, val_main_v3_apply, val_main_v2_apply]
  unfold Cert.Cell.lin
  show _ + _ = _ + _
  refine congrArg₂ (· + ·) (Finset.sum_congr rfl fun e _ => ?_) (congrArg x4 (eq_ix2_of _ _ _ rfl rfl))
  rw [mul_comm]
  exact congrArg₂ (· * ·) (congrArg x0 (eq_ix2_of _ _ _ rfl rfl)) (congrArg x3 (eq_ix3_of _ _ _ _ rfl rfl rfl))

/-- The hidden state's projection, likewise. -/
theorem v9_at (k : Fin 4) (r : Fin 32768) (f : Fin 512) :
    val_main_v9 (F := Ideal) x1 x5 x6 (ix3 k r f)
      = Cert.Cell.lin (fun e => x1 (ix2 r e)) (fun e => x5 (ix3 k f e)) (x6 (ix2 k f)) := by
  rw [val_main_v9_apply, val_main_v6_apply, val_main_v5_apply, val_main_v8_apply, val_main_v7_apply]
  unfold Cert.Cell.lin
  show _ + _ = _ + _
  refine congrArg₂ (· + ·) (Finset.sum_congr rfl fun e _ => ?_) (congrArg x6 (eq_ix2_of _ _ _ rfl rfl))
  rw [mul_comm]
  exact congrArg₂ (· * ·) (congrArg x1 (eq_ix2_of _ _ _ rfl rfl)) (congrArg x5 (eq_ix3_of _ _ _ _ rfl rfl rfl))

/-- The old cell state's projection against the first two peephole weights: gate k of the two-gate slice is gate k'
    of the three stacked weights and biases when the two numbers agree. -/
theorem v16_at (k : Fin 2) (k' : Fin 3) (hk : k.val = k'.val) (r : Fin 32768) (f : Fin 512) :
    val_main_v16 (F := Ideal) x2 x7 x8 (ix3 k r f)
      = Cert.Cell.lin (fun e => x2 (ix2 r e)) (fun e => x7 (ix3 k' f e)) (x8 (ix2 k' f)) := by
  rw [val_main_v16_apply, val_main_v12_apply, val_main_v11_apply, val_main_v15_apply, val_main_v14_apply,
    val_main_v13_apply]
  unfold Cert.Cell.lin
  show _ + _ = _ + _
  refine congrArg₂ (· + ·) (Finset.sum_congr rfl fun e _ => ?_) (congrArg x8 (eq_ix2_of _ _ _ hk rfl))
  rw [val_main_v10_apply, mul_comm]
  exact congrArg₂ (· * ·) (congrArg x2 (eq_ix2_of _ _ _ rfl rfl)) (congrArg x7 (eq_ix3_of _ _ _ _ hk rfl rfl))

/-! ## The gate slices: slice [k : k+1] of a stacked projection, reshaped to rows × features, is gate k -/

theorem v18_at (r : Fin 32768) (f : Fin 512) :
    val_main_v18 (F := Ideal) x0 x3 x4 (ix2 r f) = val_main_v4 (F := Ideal) x0 x3 x4 (ix3 (0 : Fin 4) r f) := by
  rw [val_main_v18_apply, val_main_v17_apply]
  exact congrArg (val_main_v4 (F := Ideal) x0 x3 x4) (eq_ix3_of _ _ _ _ rfl (unflat r f).1 (unflat r f).2)

theorem v20_at (r : Fin 32768) (f : Fin 512) :
    val_main_v20 (F := Ideal) x1 x5 x6 (ix2 r f) = val_main_v9 (F := Ideal) x1 x5 x6 (ix3 (0 : Fin 4) r f) := by
  rw [val_main_v20_apply, val_main_v19_apply]
  exact congrArg (val_main_v9 (F := Ideal) x1 x5 x6) (eq_ix3_of _ _ _ _ rfl (unflat r f).1 (unflat r f).2)

theorem v23_at (r : Fin 32768) (f : Fin 512) :
    val_main_v23 (F := Ideal) x2 x7 x8 (ix2 r f) = val_main_v16 (F := Ideal) x2 x7 x8 (ix3 (0 : Fin 2) r f) := by
  rw [val_main_v23_apply, val_main_v22_apply]
  exact congrArg (val_main_v16 (F := Ideal) x2 x7 x8) (eq_ix3_of _ _ _ _ rfl (unflat r f).1 (unflat r f).2)

theorem v32_at (r : Fin 32768) (f : Fin 512) :
    val_main_v32 (F := Ideal) x0 x3 x4 (ix2 r f) = val_main_v4 (F := Ideal) x0 x3 x4 (ix3 (1 : Fin 4) r f) := by
  rw [val_main_v32_apply, val_main_v31_apply]
  exact congrArg (val_main_v4 (F := Ideal) x0 x3 x4) (eq_ix3_of _ _ _ _ rfl (unflat r f).1 (unflat r f).2)

theorem v34_at (r : Fin 32768) (f : Fin 512) :
    val_main_v34 (F := Ideal) x1 x5 x6 (ix2 r f) = val_main_v9 (F := Ideal) x1 x5 x6 (ix3 (1 : Fin 4) r f) := by
  rw [val_main_v34_apply, val_main_v33_apply]
  exact congrArg (val_main_v9 (F := Ideal) x1 x5 x6) (eq_ix3_of _ _ _ _ rfl (unflat r f).1 (unflat r f).2)

theorem v37_at (r : Fin 32768) (f : Fin 512) :
    val_main_v37 (F := Ideal) x2 x7 x8 (ix2 r f) = val_main_v16 (F := Ideal) x2 x7 x8 (ix3 (1 : Fin 2) r f) := by
  rw [val_main_v37_apply, val_main_v36_apply]
  exact congrArg (val_main_v16 (F := Ideal) x2 x7 x8) (eq_ix3_of _ _ _ _ rfl (unflat r f).1 (unflat r f).2)

theorem v46_at (r : Fin 32768) (f : Fin 512) :
    val_main_v46 (F := Ideal) x0 x3 x4 (ix2 r f) = val_main_v4 (F := Ideal) x0 x3 x4 (ix3 (3 : Fin 4) r f) := by
  rw [val_main_v46_apply, val_main_v45_apply]
  exact congrArg (val_main_v4 (F := Ideal) x0 x3 x4) (eq_ix3_of _ _ _ _ rfl (unflat r f).1 (unflat r f).2)

theorem v48_at (r : Fin 32768) (f : Fin 512) :
    val_main_v48 (F := Ideal) x1 x5 x6 (ix2 r f) = val_main_v9 (F := Ideal) x1 x5 x6 (ix3 (3 : Fin 4) r f) := by
  rw [val_main_v48_apply, val_main_v47_apply]
  exact congrArg (val_main_v9 (F := Ideal) x1 x5 x6) (eq_ix3_of _ _ _ _ rfl (unflat r f).1 (unflat r f).2)

theorem v55_at (r : Fin 32768) (f : Fin 512) :
    val_main_v55 (F := Ideal) x0 x3 x4 (ix2 r f) = val_main_v4 (F := Ideal) x0 x3 x4 (ix3 (2 : Fin 4) r f) := by
  rw [val_main_v55_apply, val_main_v54_apply]
  exact congrArg (val_main_v4 (F := Ideal) x0 x3 x4) (eq_ix3_of _ _ _ _ rfl (unflat r f).1 (unflat r f).2)

theorem v57_at (r : Fin 32768) (f : Fin 512) :
    val_main_v57 (F := Ideal) x1 x5 x6 (ix2 r f) = val_main_v9 (F := Ideal) x1 x5 x6 (ix3 (2 : Fin 4) r f) := by
  rw [val_main_v57_apply, val_main_v56_apply]
  exact congrArg (val_main_v9 (F := Ideal) x1 x5 x6) (eq_ix3_of _ _ _ _ rfl (unflat r f).1 (unflat r f).2)

/-! ## The gate pre-activations -/

/-- Gate 0 (input): the input's projection plus the hidden state's. -/
theorem v21_at (r : Fin 32768) (f : Fin 512) :
    val_main_v21 (F := Ideal) x0 x1 x3 x4 x5 x6 (ix2 r f) = Cert.Cell.xh x0 x1 x3 x4 x5 x6 0 r f := by
  rw [val_main_v21_apply, v18_at, v20_at, v4_at, v9_at]
  rfl

/-- Gate 1 (forget). -/
theorem v35_at (r : Fin 32768) (f : Fin 512) :
    val_main_v35 (F := Ideal) x0 x1 x3 x4 x5 x6 (ix2 r f) = Cert.Cell.xh x0 x1 x3 x4 x5 x6 1 r f := by
  rw [val_main_v35_apply, v32_at, v34_at, v4_at, v9_at]
  rfl

/-- Gate 3 (memory). -/
theorem v49_at (r : Fin 32768) (f : Fin 512) :
    val_main_v49 (F := Ideal) x0 x1 x3 x4 x5 x6 (ix2 r f) = Cert.Cell.xh x0 x1 x3 x4 x5 x6 3 r f := by
  rw [val_main_v49_apply, v46_at, v48_at, v4_at, v9_at]
  rfl

/-- Gate 2 (output), before its peephole. -/
theorem v58_at (r : Fin 32768) (f : Fin 512) :
    val_main_v58 (F := Ideal) x0 x1 x3 x4 x5 x6 (ix2 r f) = Cert.Cell.xh x0 x1 x3 x4 x5 x6 2 r f := by
  rw [val_main_v58_apply, v55_at, v57_at, v4_at, v9_at]
  rfl

/-- The input gate's pre-activation: gate 0 plus the old cell state's peephole 0. -/
theorem v24_at (r : Fin 32768) (f : Fin 512) :
    val_main_v24 (F := Ideal) x0 x1 x2 x3 x4 x5 x6 x7 x8 (ix2 r f)
      = Cert.Cell.xh x0 x1 x3 x4 x5 x6 0 r f + Cert.Cell.peep x2 x7 x8 0 r f := by
  rw [val_main_v24_apply, v21_at, v23_at, v16_at x2 x7 x8 0 0 rfl]
  rfl

/-- The forget gate's pre-activation: gate 1 plus the old cell state's peephole 1. -/
theorem v38_at (r : Fin 32768) (f : Fin 512) :
    val_main_v38 (F := Ideal) x0 x1 x2 x3 x4 x5 x6 x7 x8 (ix2 r f)
      = Cert.Cell.xh x0 x1 x3 x4 x5 x6 1 r f + Cert.Cell.peep x2 x7 x8 1 r f := by
  rw [val_main_v38_apply, v35_at, v37_at, v16_at x2 x7 x8 1 1 rfl]
  rfl

/-! ## The sigmoid -/

/-- The reference spells the sigmoid 1 / (1 + e^(−z)) with the two ones as the word of the float 1.0; that word is
    the extended real 1, and the expression is the logistic function by its definition. -/
theorem host_sigmoid (z : Ideal .f32) :
    FloatOps.hostDivf (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 _) (Ideal.ofBits .f32 _ + Ideal.exp (-z)) = Ideal.div 1 (1 + Ideal.exp (-z))
  rw [Ideal.ofBits_one_f32]

/-- The input gate. -/
theorem v30_at (i : S32768x512.Idx) :
    val_main_v30 (F := Ideal) x0 x1 x2 x3 x4 x5 x6 x7 x8 i
      = Ideal.logistic (val_main_v24 (F := Ideal) x0 x1 x2 x3 x4 x5 x6 x7 x8 i) := by
  rw [val_main_v30_apply, val_main_v29_apply, val_main_cst_0_apply, val_main_v28_apply, val_main_v27_apply,
    val_main_cst_apply, val_main_v26_apply, val_main_v25_apply]
  exact host_sigmoid _

/-- The forget gate. -/
theorem v44_at (i : S32768x512.Idx) :
    val_main_v44 (F := Ideal) x0 x1 x2 x3 x4 x5 x6 x7 x8 i
      = Ideal.logistic (val_main_v38 (F := Ideal) x0 x1 x2 x3 x4 x5 x6 x7 x8 i) := by
  rw [val_main_v44_apply, val_main_v43_apply, val_main_cst_2_apply, val_main_v42_apply, val_main_v41_apply,
    val_main_cst_1_apply, val_main_v40_apply, val_main_v39_apply]
  exact host_sigmoid _

/-- The output gate. -/
theorem v74_at (i : S32768x512.Idx) :
    val_main_v74 (F := Ideal) x0 x1 x2 x3 x4 x5 x6 x7 x8 i
      = Ideal.logistic (val_main_v68 (F := Ideal) x0 x1 x2 x3 x4 x5 x6 x7 x8 i) := by
  rw [val_main_v74_apply, val_main_v73_apply, val_main_cst_4_apply, val_main_v72_apply, val_main_v71_apply,
    val_main_cst_3_apply, val_main_v70_apply, val_main_v69_apply]
  exact host_sigmoid _

/-! ## The new cell state -/

/-- forget · c + input · tanh(memory), at row r and feature f. -/
theorem v53_at (r : Fin 32768) (f : Fin 512) :
    val_main_v53 (F := Ideal) x0 x1 x2 x3 x4 x5 x6 x7 x8 (ix2 r f)
      = Cert.Cell.cellC x0 x1 x2 x3 x4 x5 x6 x7 x8 r f := by
  rw [val_main_v53_apply, val_main_v51_apply, val_main_v52_apply, v44_at, v30_at, val_main_v50_apply, v38_at, v24_at,
    v49_at]
  rfl

/-! ## The output gate's peephole at the new cell state, and the new hidden state -/

/-- The third peephole weight, sliced out, reshaped to a matrix and transposed: its element [e, f] is Wc[2, f, e]. -/
theorem v61_at (e f : Fin 512) : val_main_v61 (F := Ideal) x7 (ix2 e f) = x7 (ix3 (2 : Fin 3) f e) := by
  rw [val_main_v61_apply, val_main_v60_apply, val_main_v59_apply]
  exact congrArg x7 (eq_ix3_of _ _ _ _ rfl (unflat f e).1 (unflat f e).2)

/-- The new cell state's row against that matrix's column: ∑ₑ next_c[r, e] · Wc[2, f, e]. -/
theorem v62_at (r : Fin 32768) (f : Fin 512) :
    val_main_v62 (F := Ideal) x0 x1 x2 x3 x4 x5 x6 x7 x8 (ix2 r f)
      = ∑ e : Fin 512, Cert.Cell.cellC x0 x1 x2 x3 x4 x5 x6 x7 x8 r e * x7 (ix3 (2 : Fin 3) f e) := by
  rw [val_main_v62_apply]
  refine Finset.sum_congr rfl fun e _ => ?_
  rw [show lidx_main_v62 (ix2 r f) e = ix2 r e from eq_ix2_of _ _ _ rfl rfl,
    show ridx_main_v62 (ix2 r f) e = ix2 e f from eq_ix2_of _ _ _ rfl rfl, v53_at, v61_at]

/-- The third peephole bias, sliced out and broadcast along the rows. -/
theorem v67_at (r : Fin 32768) (f : Fin 512) : val_main_v67 (F := Ideal) x8 (ix2 r f) = x8 (ix2 (2 : Fin 3) f) := by
  rw [val_main_v67_apply, val_main_v66_apply, val_main_v65_apply, val_main_v64_apply]
  exact congrArg x8 (eq_ix2_of _ _ _ rfl (Nat.mod_eq_of_lt f.isLt))

/-- The output gate's pre-activation: (gate 2 + the peephole at the new cell state) + its bias. -/
theorem v68_at (r : Fin 32768) (f : Fin 512) :
    val_main_v68 (F := Ideal) x0 x1 x2 x3 x4 x5 x6 x7 x8 (ix2 r f)
      = (Cert.Cell.xh x0 x1 x3 x4 x5 x6 2 r f
          + ∑ e : Fin 512, Cert.Cell.cellC x0 x1 x2 x3 x4 x5 x6 x7 x8 r e * x7 (ix3 (2 : Fin 3) f e))
        + x8 (ix2 (2 : Fin 3) f) := by
  rw [val_main_v68_apply, val_main_v63_apply, v58_at, v62_at, v67_at]
  rfl

/-- output · next_c, at row r and feature f. -/
theorem v75_at (r : Fin 32768) (f : Fin 512) :
    val_main_v75 (F := Ideal) x0 x1 x2 x3 x4 x5 x6 x7 x8 (ix2 r f)
      = Cert.Cell.cellH x0 x1 x2 x3 x4 x5 x6 x7 x8 r f := by
  rw [val_main_v75_apply, v74_at, v68_at, v53_at]
  rfl

end

/-! ## The two results as arrays -/

/-- The reference's second result, next_c, is the specification's new cell state. -/
theorem ref_nextC (x0 x1 x2 : (⟨S32768x512, .f32⟩ : BufTy).Contents (Elt Ideal)) (x3 : (⟨S4x512x512, .f32⟩ : BufTy).Contents (Elt Ideal)) (x4 : (⟨S4x512, .f32⟩ : BufTy).Contents (Elt Ideal)) (x5 : (⟨S4x512x512, .f32⟩ : BufTy).Contents (Elt Ideal)) (x6 : (⟨S4x512, .f32⟩ : BufTy).Contents (Elt Ideal)) (x7 : (⟨S3x512x512, .f32⟩ : BufTy).Contents (Elt Ideal)) (x8 : (⟨S3x512, .f32⟩ : BufTy).Contents (Elt Ideal)) :
    val_main_v53 (F := Ideal) x0 x1 x2 x3 x4 x5 x6 x7 x8 = Cert.Cell.nextC x0 x1 x2 x3 x4 x5 x6 x7 x8 := by
  funext i
  rw [eq_ix2 i]
  exact v53_at x0 x1 x2 x3 x4 x5 x6 x7 x8 (i 0) (i 1)

/-- The reference's first result, next_h, is the specification's new hidden state. -/
theorem ref_nextH (x0 x1 x2 : (⟨S32768x512, .f32⟩ : BufTy).Contents (Elt Ideal)) (x3 : (⟨S4x512x512, .f32⟩ : BufTy).Contents (Elt Ideal)) (x4 : (⟨S4x512, .f32⟩ : BufTy).Contents (Elt Ideal)) (x5 : (⟨S4x512x512, .f32⟩ : BufTy).Contents (Elt Ideal)) (x6 : (⟨S4x512, .f32⟩ : BufTy).Contents (Elt Ideal)) (x7 : (⟨S3x512x512, .f32⟩ : BufTy).Contents (Elt Ideal)) (x8 : (⟨S3x512, .f32⟩ : BufTy).Contents (Elt Ideal)) :
    val_main_v75 (F := Ideal) x0 x1 x2 x3 x4 x5 x6 x7 x8 = Cert.Cell.nextH x0 x1 x2 x3 x4 x5 x6 x7 x8 := by
  funext i
  rw [eq_ix2 i]
  exact v75_at x0 x1 x2 x3 x4 x5 x6 x7 x8 (i 0) (i 1)

end Cert.ReferenceIdeal.Cell

end
-- ==== Proof.lean ====
/-
  A Graves LSTM cell: the kernel against its jnp reference, over the extended reals.

  Both programs compute, from activations x, h, c : [32768, 512] and stacked weights Wx, Wh : [4, 512, 512],
  Wc : [3, 512, 512] with their biases,

    next_c = σ(x·Wx₁ᵀ + bx₁ + h·Wh₁ᵀ + bh₁ + c·Wc₁ᵀ + bc₁) · c + σ(x·Wx₀ᵀ + bx₀ + h·Wh₀ᵀ + bh₀ + c·Wc₀ᵀ + bc₀) · tanh(x·Wx₃ᵀ + bx₃ + h·Wh₃ᵀ + bh₃)
    next_h = σ(x·Wx₂ᵀ + bx₂ + h·Wh₂ᵀ + bh₂ + next_c·Wc₂ᵀ + bc₂) · next_c

  (Proof/Spec.lean states them entry by entry, every sum grouped as both programs group it). The kernel flattens the
  eleven products into three wide ones and one narrow one over weights the host re-lays before the launch, walks the rows
  in 64 blocks of 512, converts its operands to bf16 (no change to an extended real) and calls the sigmoid as one
  operation; the reference takes einsums of the stacked weights against the activations and spells the sigmoid
  1 / (1 + e^(−z)). At the ideal instance the one operation IS that expression, the two orders of the factors in a
  product agree by commutativity, and a sum over the contracted coordinate is the same sum on both sides: so both runs
  end with `nextH` and `nextC` of the arguments (Proof/KernelValue.lean for the kernel, Proof/RefCell.lean for the
  reference), whatever the inputs: finiteness of the inputs is never used. The three frames are the generated frame
  runs and the reference's generated run; the idealization rewrote no operation.
-/
import proofs.«107787_j20761871908970_1_alg».proof.Defs
import proofs.«107787_j20761871908970_1_alg».proof.Proof.Gen.Kernel
import proofs.«107787_j20761871908970_1_alg».proof.Proof.Gen.Kernel.Skeleton
import proofs.«107787_j20761871908970_1_alg».proof.Proof.Gen.Kernel.Launch
import proofs.«107787_j20761871908970_1_alg».proof.Proof.Gen.Kernel.Points
import proofs.«107787_j20761871908970_1_alg».proof.Proof.Gen.Kernel.Frame
import proofs.«107787_j20761871908970_1_alg».proof.Proof.Gen.KernelIdeal
import proofs.«107787_j20761871908970_1_alg».proof.Proof.Gen.KernelIdeal.Skeleton
import proofs.«107787_j20761871908970_1_alg».proof.Proof.Gen.KernelIdeal.Launch
import proofs.«107787_j20761871908970_1_alg».proof.Proof.Gen.KernelIdeal.Points
import proofs.«107787_j20761871908970_1_alg».proof.Proof.Gen.KernelIdeal.Frame
import proofs.«107787_j20761871908970_1_alg».proof.Proof.Gen.ReferenceIdeal
import proofs.«107787_j20761871908970_1_alg».proof.Proof.Gen.Pre_finite_inputs
import proofs.«107787_j20761871908970_1_alg».proof.Proof.Gen.KernelIdeal.Value
import proofs.«107787_j20761871908970_1_alg».proof.Proof.Gen.ReferenceIdeal.Run
import proofs.«107787_j20761871908970_1_alg».proof.Proof.Gen.ReferenceIdeal.Read
import proofs.«107787_j20761871908970_1_alg».proof.Proof.KernelValue
import proofs.«107787_j20761871908970_1_alg».proof.Proof.RefCell
import Idealize.ShloMosaic.Adequacy
import Idealize.ShloMosaic.Init

noncomputable section

namespace Cert.Proof

open Idealize.ShloMosaic Idealize.SL.Sem Cert.Kernel

/-- The word-level kernel runs, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the nine arguments both idealized programs end with the cell's `nextH` and `nextC` of
    those arguments. -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8⟩ := hagree c
    rw [Cert.ReferenceIdeal.Read.val_main_v75_eq, Cert.ReferenceIdeal.Cell.ref_nextH, e0, e1, e2, e3, e4, e5, e6, e7, e8]
  · obtain ⟨e0, e1, e2, e3, e4, e5, e6, e7, e8⟩ := hagree c
    rw [Cert.ReferenceIdeal.Read.val_main_v53_eq, Cert.ReferenceIdeal.Cell.ref_nextC, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
